-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S128x128 : Shape := ⟨2, ![128, 128]⟩
abbrev S128x32 : Shape := ⟨2, ![128, 32]⟩
abbrev S32x128 : Shape := ⟨2, ![32, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_arg7 : FVec F S32x128 .f32) (main_v33 : IVec S_ 1) : IVec S_ 1 :=
  let main_v34 : FVec F S32x128 .f32 := Host.absf main_arg7
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  main_v38

def fn_part1 {F : FTy → Type} [FloatOps F] (main_arg4 : FVec F S1024 .f32) (main_arg5 : FVec F S128x128 .f32) (main_arg6 : FVec F S128x32 .f32) (main_arg7 : FVec F S32x128 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_v33

def fn {F : FTy → Type} [FloatOps F] (main_arg0 : FVec F S32768x128 .f32) (main_arg1 : FVec F S1024x128 .f32) (main_arg2 : FVec F S1024 .f32) (main_arg3 : FVec F S1024x1024 .f32) (main_arg4 : FVec F S1024 .f32) (main_arg5 : FVec F S128x128 .f32) (main_arg6 : FVec F S128x32 .f32) (main_arg7 : FVec F S32x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S128x128 : Shape := ⟨2, ![128, 128]⟩
abbrev S128x32 : Shape := ⟨2, ![128, 32]⟩
abbrev S32x128 : Shape := ⟨2, ![32, 128]⟩
abbrev S128x1024 : Shape := ⟨2, ![128, 1024]⟩
abbrev S32768x32 : Shape := ⟨2, ![32768, 32]⟩
abbrev S32768 : Shape := ⟨1, ![32768]⟩
abbrev S32768x1 : Shape := ⟨2, ![32768, 1]⟩
abbrev S32768x1x1 : Shape := ⟨3, ![32768, 1, 1]⟩
abbrev S512x128 : Shape := ⟨2, ![512, 128]⟩
abbrev S512x32 : Shape := ⟨2, ![512, 32]⟩
abbrev S512 : Shape := ⟨1, ![512]⟩
abbrev S512x1024 : Shape := ⟨2, ![512, 1024]⟩
abbrev S1x1024 : Shape := ⟨2, ![1, 1024]⟩
abbrev S512x1 : Shape := ⟨2, ![512, 1]⟩

abbrev nBuf : Space → Nat
  | .hbm => 25
  | .vmem => 19
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S128x128, .f32⟩
  | .hbm, ⟨6, _⟩ => ⟨S128x32, .f32⟩
  | .hbm, ⟨7, _⟩ => ⟨S32x128, .f32⟩
  | .hbm, ⟨8, _⟩ => ⟨S1024x128, .bf16⟩
  | .hbm, ⟨9, _⟩ => ⟨S128x1024, .f32⟩
  | .hbm, ⟨10, _⟩ => ⟨S128x1024, .bf16⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S128x128, .f32⟩
  | .hbm, ⟨15, _⟩ => ⟨S128x128, .bf16⟩
  | .hbm, ⟨16, _⟩ => ⟨S128x32, .bf16⟩
  | .hbm, ⟨17, _⟩ => ⟨S128x32, .f32⟩
  | .hbm, ⟨18, _⟩ => ⟨S128x32, .bf16⟩
  | .hbm, ⟨19, _⟩ => ⟨S32768x32, .f32⟩
  | .hbm, ⟨20, _⟩ => ⟨S32768, .f32⟩
  | .hbm, ⟨21, _⟩ => ⟨S32768, .f32⟩
  | .hbm, ⟨22, _⟩ => ⟨S32768, .f32⟩
  | .hbm, ⟨23, _⟩ => ⟨S32768x1, .f32⟩
  | .hbm, ⟨24, _⟩ => ⟨S32768x1x1, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S128x1024, .bf16⟩
  | .local _ .vmem, ⟨4, _⟩ => ⟨S1024, .f32⟩
  | .local _ .vmem, ⟨5, _⟩ => ⟨S1024x1024, .bf16⟩
  | .local _ .vmem, ⟨6, _⟩ => ⟨S1024x1024, .bf16⟩
  | .local _ .vmem, ⟨7, _⟩ => ⟨S1024, .f32⟩
  | .local _ .vmem, ⟨8, _⟩ => ⟨S128x128, .bf16⟩
  | .local _ .vmem, ⟨9, _⟩ => ⟨S128x32, .bf16⟩
  | .local _ .vmem, ⟨10, _⟩ => ⟨S128x32, .bf16⟩
  | .local _ .vmem, ⟨11, _⟩ => ⟨S512x32, .f32⟩
  | .local _ .vmem, ⟨12, _⟩ => ⟨S512x32, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0_0 : Ref sig .tc := ⟨.hbm, 19, rfl⟩
abbrev main_v0_2 : Ref sig .tc := ⟨.hbm, 20, rfl⟩
abbrev main_call0_v11_2 : Ref sig .tc := ⟨.hbm, 21, rfl⟩
abbrev main_call0_v11_3 : Ref sig .tc := ⟨.hbm, 22, rfl⟩
abbrev main_v0_1 : Ref sig .tc := ⟨.hbm, 23, rfl⟩
abbrev main_v0_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 1 → Nat :=
  let arg0 : BitVec 32 := BitVec.ofNat 32 (i 0).val
  let c0_i32 : BitVec 32 := 0#32
  ![arg0.toNat]

def cc0_transform_13 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  transposes_S1024x128_S128x1024_1_0 : S1024x128.Transposes [1, 0] S128x1024
  transposes_S1024x1024_S1024x1024_1_0 : S1024x1024.Transposes [1, 0] S1024x1024
  transposes_S128x128_S128x128_1_0 : S128x128.Transposes [1, 0] S128x128
  transposes_S32x128_S128x32_1_0 : S32x128.Transposes [1, 0] S128x32
  bcast_S32768_S32768x1_0 : S32768.BroadcastsInDim S32768x1 (![0] : Fin 1 → Fin S32768x1.rank)
  bcast_S32768_S32768x1x1_0 : S32768.BroadcastsInDim S32768x1x1 (![0] : Fin 1 → Fin S32768x1x1.rank)
  inb_S512x128_S512x128_0_0 : ∀ a, (![0, 0] : Fin 2 → Nat) a + S512x128.size a ≤ S512x128.size a
  h_S512x128 : 0 < S512x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S512x128_S512 : S512x128.Reduces [1] S512
  inb_S128x32_S128x32_0_0 : ∀ a, (![0, 0] : Fin 2 → Nat) a + S128x32.size a ≤ S128x32.size a
  h_S128x32 : 0 < S128x32.numel
  shapeCasts_S128x32_S128x32 : S128x32.ShapeCasts S128x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  inb_S512_S512_0 : ∀ a, (![0] : Fin 1 → Nat) a + S512.size a ≤ S512.size a
  h_S512 : 0 < S512.numel
  dot_S512x128_S128x1024_S512x1024_1_0_0_1_n_n_wf : DotDims.WF S512x128 S128x1024 S512x1024 [1] [0] [0] [1] [] []
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  dot_S512x128_S128x128_S512x128_1_0_0_1_n_n_wf : DotDims.WF S512x128 S128x128 S512x128 [1] [0] [0] [1] [] []
  dot_S512x128_S128x32_S512x32_1_0_0_1_n_n_wf : DotDims.WF S512x128 S128x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .bf16 = 32 ∨ (Rect.block (s := S128x32) S128x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S128x32.size a
  hwx0_9 : ∀ i : grid0.Coords, EltTy.bits .bf16 = 32 ∨ (Rect.block (s := S128x32) S128x32.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x32.size a ≤ S32768x32.size a
  hwx0_10 : ∀ i : grid0.Coords, EltTy.bits .f32 = 32 ∨ (Rect.block (s := S32768x32) S512x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S32768.size a
  hwx0_11 : ∀ i : grid0.Coords, EltTy.bits .f32 = 32 ∨ (Rect.block (s := S32768) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S32768.size a
  hwx0_12 : ∀ i : grid0.Coords, EltTy.bits .f32 = 32 ∨ (Rect.block (s := S32768) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S32768.size a
  hwx0_13 : ∀ i : grid0.Coords, EltTy.bits .f32 = 32 ∨ (Rect.block (s := S32768) S512.size (cc0_transform_13 i) (hinb0_13 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v10) S128x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S512x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_call0_v11_2) S512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_call0_v11_3) S512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S128x128 : Shape := ⟨2, ![128, 128]⟩
abbrev S128x32 : Shape := ⟨2, ![128, 32]⟩
abbrev S32x128 : Shape := ⟨2, ![32, 128]⟩
abbrev S128x1024 : Shape := ⟨2, ![128, 1024]⟩
abbrev S32768x1024 : Shape := ⟨2, ![32768, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x32 : Shape := ⟨2, ![32768, 32]⟩
abbrev S32768x1x1 : Shape := ⟨3, ![32768, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S128x128, .f32⟩
  | .hbm, ⟨6, _⟩ => ⟨S128x32, .f32⟩
  | .hbm, ⟨7, _⟩ => ⟨S32x128, .f32⟩
  | .hbm, ⟨8, _⟩ => ⟨S128x1024, .f32⟩
  | .hbm, ⟨9, _⟩ => ⟨S32768x1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S_, .f32⟩
  | .hbm, ⟨24, _⟩ => ⟨S32768, .f32⟩
  | .hbm, ⟨25, _⟩ => ⟨S32768, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x128, .f32⟩
  | .hbm, ⟨38, _⟩ => ⟨S128x128, .f32⟩
  | .hbm, ⟨39, _⟩ => ⟨S32768x128, .f32⟩
  | .hbm, ⟨40, _⟩ => ⟨S32768x128, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S32768x32, .f32⟩
  | .hbm, ⟨45, _⟩ => ⟨S128x32, .f32⟩
  | .hbm, ⟨46, _⟩ => ⟨S32768x32, .f32⟩
  | .hbm, ⟨47, _⟩ => ⟨S32768x32, .f32⟩
  | .hbm, ⟨48, _⟩ => ⟨S32768, .f32⟩
  | .hbm, ⟨49, _⟩ => ⟨S_, .f32⟩
  | .hbm, ⟨50, _⟩ => ⟨S32768, .f32⟩
  | .hbm, ⟨51, _⟩ => ⟨S32768, .f32⟩
  | .hbm, ⟨52, _⟩ => ⟨S32768, .f32⟩
  | .hbm, ⟨53, _⟩ => ⟨S32768x32, .f32⟩
  | .hbm, ⟨54, _⟩ => ⟨S_, .f32⟩
  | .hbm, ⟨55, _⟩ => ⟨S32768, .f32⟩
  | .hbm, ⟨56, _⟩ => ⟨S32768, .f32⟩
  | .hbm, ⟨57, _⟩ => ⟨S_, .f32⟩
  | .hbm, ⟨58, _⟩ => ⟨S32768, .f32⟩
  | .hbm, ⟨59, _⟩ => ⟨S32768, .f32⟩
  | .hbm, ⟨60, _⟩ => ⟨S32768x32, .f32⟩
  | .hbm, ⟨61, _⟩ => ⟨S_, .f32⟩
  | .hbm, ⟨62, _⟩ => ⟨S32768, .f32⟩
  | .hbm, ⟨63, _⟩ => ⟨S_, .f32⟩
  | .hbm, ⟨64, _⟩ => ⟨S32768, .f32⟩
  | .hbm, ⟨65, _⟩ => ⟨S32768, .f32⟩
  | .hbm, ⟨66, _⟩ => ⟨S_, .f32⟩
  | .hbm, ⟨67, _⟩ => ⟨S32768, .f32⟩
  | .hbm, ⟨68, _⟩ => ⟨S32768, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x32, .f32⟩
  | .hbm, ⟨75, _⟩ => ⟨S32768x32, .f32⟩
  | .hbm, ⟨76, _⟩ => ⟨S32768x32, .f32⟩
  | .hbm, ⟨77, _⟩ => ⟨S32768, .f32⟩
  | .hbm, ⟨78, _⟩ => ⟨S32768x32, .f32⟩
  | .hbm, ⟨79, _⟩ => ⟨S_, .f32⟩
  | .hbm, ⟨80, _⟩ => ⟨S32768, .f32⟩
  | .hbm, ⟨81, _⟩ => ⟨S32768, .f32⟩
  | .hbm, ⟨82, _⟩ => ⟨S32768x1x1, .f32⟩
  | .hbm, ⟨83, _⟩ => ⟨S32768x1, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  transposes_S1024x128_S128x1024_1_0 : S1024x128.Transposes [1, 0] S128x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1024x1024_S1024x1024_1_0 : S1024x1024.Transposes [1, 0] S1024x1024
  reducesTo_S32768x1024_S32768_d1 : S32768x1024.ReducesTo [1] S32768
  h_S_ : 0 < S_.numel
  bcast_S_S32768 : S_.BroadcastsInDim S32768 (![] : Fin 0 → Fin S32768.rank)
  bcast_S_S32768x1024 : S_.BroadcastsInDim S32768x1024 (![] : Fin 0 → Fin S32768x1024.rank)
  transposes_S128x128_S128x128_1_0 : S128x128.Transposes [1, 0] S128x128
  reducesTo_S32768x128_S32768_d1 : S32768x128.ReducesTo [1] S32768
  bcast_S32768_S32768x1_0 : S32768.BroadcastsInDim S32768x1 (![0] : Fin 1 → Fin S32768x1.rank)
  transposes_S32x128_S128x32_1_0 : S32x128.Transposes [1, 0] S128x32
  shapeCasts_S32768x1_S32768 : S32768x1.ShapeCasts S32768
  reducesTo_S32768x32_S32768_d1 : S32768x32.ReducesTo [1] S32768
  bcast_S_S32768x1 : S_.BroadcastsInDim S32768x1 (![] : Fin 0 → Fin S32768x1.rank)
  bcast_S32768x1_S32768x32_0_1 : S32768x1.BroadcastsInDim S32768x32 (![0, 1] : Fin 2 → Fin S32768x32.rank)
  bcast_S32768_S32768x1x1_0 : S32768.BroadcastsInDim S32768x1x1 (![0] : Fin 1 → Fin S32768x1x1.rank)
  dot_S32768x128_S128x1024_S32768x1024_1_0_0_1_n_n_wf : DotDims.WF S32768x128 S128x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x128_S32768x128_1_0_0_1_n_n_wf : DotDims.WF S32768x1024 S1024x128 S32768x128 [1] [0] [0] [1] [] []
  dot_S32768x128_S128x128_S32768x128_1_0_0_1_n_n_wf : DotDims.WF S32768x128 S128x128 S32768x128 [1] [0] [0] [1] [] []
  dot_S32768x128_S128x32_S32768x32_1_0_0_1_n_n_wf : DotDims.WF S32768x128 S128x32 S32768x32 [1] [0] [0] [1] [] []

variable [Facts₀]

def dot_S32768x128_S128x1024_S32768x1024_1_0_0_1_n_n : DotDims S32768x128 S128x1024 S32768x1024 where
  lhsContracting := [1]
  rhsContracting := [0]
  lhsNonContracting := [0]
  rhsNonContracting := [1]
  lhsBatch := []
  rhsBatch := []
  wf := dot_S32768x128_S128x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x128_S128x32_S32768x32_1_0_0_1_n_n : DotDims S32768x128 S128x32 S32768x32 where
  lhsContracting := [1]
  rhsContracting := [0]
  lhsNonContracting := [0]
  rhsNonContracting := [1]
  lhsBatch := []
  rhsBatch := []
  wf := dot_S32768x128_S128x32_S32768x32_1_0_0_1_n_n_wf

class Facts : Prop extends Facts₀ where

variable [Facts]
-- ==== Proof.RowSpec.lean ====
/-
  The controller, one batch row at a time, on the extended reals.

  For a state row x ∈ ℝ¹²⁸ (here: any extended reals) and weights W1 [1024,128], b1, W2 [1024,1024], b2,
  A [128,128], G [128,32], K [32,128]:

    a1 = tanh (W1 x + b1)                       a2 = tanh (W2 a1 + b2)
    V  = ½ · Σ_j a2_j²                          the Lyapunov value
    t  = W2ᵀ (a2 ∘ (1 − a2²))                   grad = W1ᵀ (t ∘ (1 − a1²))     the gradient of V, back through both layers
    f  = A x            L_f = Σ_n grad_n f_n    L_g = Gᵀ grad                   u_nom = −K x
    s  = (L_f + 1·V) + Σ_c L_g,c u_nom,c        r = max (s, 0) / (1 + 100 · Σ_c L_g,c²)
    u  = u_nom − (100 · r) · L_g                V̇ = L_f + Σ_c L_g,c u_c

  Both programs materialise the transposes W1ᵀ, W2ᵀ, Aᵀ, Kᵀ before they contract, so the functions below take the
  transposed copies as arrays of their own (`w1t` is read at (k, h), `w2t` at (h, j), `aft` at (k, n), `kt` at (k, c)):
  which array they are is said where the functions are used. The four float words 0.5, 1.0, 100.0 and 0.0 the two
  programs share are kept as words. Every sum is a finite sum over the coordinate of the contracted axis, in the
  order and grouping both programs use; nothing here depends on a value being finite.
-/
import Idealize.ShloMosaic.PureOps.Ideal
import Idealize.ShloMosaic.Lib.ValueIdx

noncomputable section

namespace Cert.ClfQp

open Idealize.ShloMosaic Idealize.ShloMosaic.ValueIdx
open scoped BigOperators

/-- A matrix, a vector of extended reals over literal extents. -/
abbrev Mat (a b : Nat) : Type := (⟨2, ![a, b]⟩ : Shape).Idx → EReal
abbrev Vect (a : Nat) : Type := (⟨1, ![a]⟩ : Shape).Idx → EReal

/-! ## The network and the gradient of its value -/

section Net
variable (w1t : Mat 128 1024) (b1 : Vect 1024) (w2t : Mat 1024 1024) (b2 : Vect 1024) (w2 : Mat 1024 1024) (w1 : Mat 1024 128)
variable (xr : Fin 128 → EReal)

/-- The first layer's activations of the row. -/
def act1 (h : Fin 1024) : EReal := Ideal.tanh (∑ k : Fin 128, xr k * w1t (ix2 k h) + b1 (ix1 h))

/-- The second layer's. -/
def act2 (j : Fin 1024) : EReal :=
  Ideal.tanh (∑ h : Fin 1024, act1 w1t b1 xr h * w2t (ix2 h j) + b2 (ix1 j))

/-- The Lyapunov value: half the squared norm of the second layer. -/
def lyap : EReal :=
  Ideal.ofBits .f32 0x3F000000#32 * ∑ j : Fin 1024, act2 w1t b1 w2t b2 xr j * act2 w1t b1 w2t b2 xr j

/-- The value's derivative carried back to the first layer's outputs. -/
def back2 (h : Fin 1024) : EReal :=
  ∑ j : Fin 1024, (act2 w1t b1 w2t b2 xr j * (Ideal.ofBits .f32 0x3F800000#32 - act2 w1t b1 w2t b2 xr j * act2 w1t b1 w2t b2 xr j))
    * w2 (ix2 j h)

/-- The gradient of the value at the row. -/
def grad (n : Fin 128) : EReal :=
  ∑ h : Fin 1024, (back2 w1t b1 w2t b2 w2 xr h * (Ideal.ofBits .f32 0x3F800000#32 - act1 w1t b1 xr h * act1 w1t b1 xr h))
    * w1 (ix2 h n)

end Net

/-! ## The relaxed quadratic program in closed form, from a row, a gradient and a value -/

section Qp
variable (aft : Mat 128 128) (g : Mat 128 32) (kt : Mat 128 32)
variable (xr gr : Fin 128 → EReal) (v : EReal)

/-- The drift f = A x. -/
def drift (n : Fin 128) : EReal := ∑ k : Fin 128, xr k * aft (ix2 k n)

/-- L_f = ⟨grad, f⟩. -/
def lieF : EReal := ∑ n : Fin 128, gr n * drift aft xr n

/-- L_g = Gᵀ grad. -/
def lieG (c : Fin 32) : EReal := ∑ n : Fin 128, gr n * g (ix2 n c)

/-- The nominal control −K x. -/
def nominal (c : Fin 32) : EReal := -(∑ k : Fin 128, xr k * kt (ix2 k c))

/-- The constraint's value at the nominal control. -/
def slack : EReal :=
  (lieF aft xr gr + Ideal.ofBits .f32 0x3F800000#32 * v) + ∑ c : Fin 32, lieG g gr c * nominal kt xr c

/-- 1 + 100 · ‖L_g‖². -/
def denom : EReal :=
  Ideal.ofBits .f32 0x3F800000#32 + Ideal.ofBits .f32 0x42C80000#32 * ∑ c : Fin 32, lieG g gr c * lieG g gr c

/-- The relaxation r. -/
def relax : EReal := Ideal.div (max (slack aft g kt xr gr v) (Ideal.ofBits .f32 0x00000000#32)) (denom g gr)

/-- The control u. -/
def qpControl (c : Fin 32) : EReal :=
  nominal kt xr c - (Ideal.ofBits .f32 0x42C80000#32 * relax aft g kt xr gr v) * lieG g gr c

/-- The value's rate V̇ under that control. -/
def decay : EReal := lieF aft xr gr + ∑ c : Fin 32, lieG g gr c * qpControl aft g kt xr gr v c

end Qp

end Cert.ClfQp

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelRow.lean ====
/-
  The kernel body's values, one row of the block at a time, on the extended reals: each named value of the body
  at row p is the controller's function (RowSpec) of row p of the state block and of the weight blocks as loaded.
  A change of float format is the identity there; a matrix product into the zero accumulator is the sum over the
  contracted coordinate; a sum along the lanes is the sum over the lane coordinate; and 0 − y is −y.
-/
import proofs.«131149_j4483945857528_1_alg».proof.Proof.Gen.KernelIdeal.Skeleton
import proofs.«131149_j4483945857528_1_alg».proof.Proof.RowSpec
import proofs.«131149_j4483945857528_1_alg».proof.Proof.LibPlainDot

noncomputable section

namespace Cert.KernelIdeal.RowValue

open Cert.KernelIdeal Cert.KernelIdeal.Gen Cert.ClfQp
open Idealize.ShloMosaic Idealize.ShloMosaic.ValueIdx Idealize.ShloMosaic.PlainDot
open scoped BigOperators

variable [Cert.KernelIdeal.Facts]

/-- Row p of a block of 512 rows. -/
abbrev rowOf {C : Nat} (v : (⟨2, ![512, C]⟩ : Shape).Idx → EReal) (p : Fin 512) : Fin C → EReal := fun k => v (ix2 p k)

theorem tanh_at {s : Shape} (v : FVec Ideal s .f32) (i : s.Idx) : tanh v i = Ideal.tanh (v i) := rfl

/-! ## The five matrix products of the body, each at an entry -/

theorem mm_x_w1t (l : FVec Ideal S512x128 .bf16) (r : FVec Ideal S128x1024 .bf16) (p : Fin 512) (q : Fin 1024) :
    matmul dot_S512x128_S128x1024_S512x1024_1_0_0_1_n_n none l r (constant S512x1024 .f32 0x00000000#32) (ix2 p q)
      = ∑ k : Fin 128, (l (ix2 p k) : EReal) * (r (ix2 k q) : EReal) :=
  matmul_zero_apply _ rfl rfl rfl rfl rfl rfl none l r p q

theorem mm_h_w2 (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, (l (ix2 p k) : EReal) * (r (ix2 k q) : EReal) :=
  matmul_zero_apply _ rfl rfl rfl rfl rfl rfl none l r p q

theorem mm_h_w1 (l : FVec Ideal S512x1024 .bf16) (r : FVec Ideal S1024x128 .bf16) (p : Fin 512) (q : Fin 128) :
    matmul dot_S512x1024_S1024x128_S512x128_1_0_0_1_n_n none l r (constant S512x128 .f32 0x00000000#32) (ix2 p q)
      = ∑ k : Fin 1024, (l (ix2 p k) : EReal) * (r (ix2 k q) : EReal) :=
  matmul_zero_apply _ rfl rfl rfl rfl rfl rfl none l r p q

theorem mm_x_aft (l : FVec Ideal S512x128 .bf16) (r : FVec Ideal S128x128 .bf16) (p : Fin 512) (q : Fin 128) :
    matmul dot_S512x128_S128x128_S512x128_1_0_0_1_n_n none l r (constant S512x128 .f32 0x00000000#32) (ix2 p q)
      = ∑ k : Fin 128, (l (ix2 p k) : EReal) * (r (ix2 k q) : EReal) :=
  matmul_zero_apply _ rfl rfl rfl rfl rfl rfl none l r p q

theorem mm_x_c (l : FVec Ideal S512x128 .bf16) (r : FVec Ideal S128x32 .bf16) (p : Fin 512) (q : Fin 32) :
    matmul dot_S512x128_S128x32_S512x32_1_0_0_1_n_n none l r (constant S512x32 .f32 0x00000000#32) (ix2 p q)
      = ∑ k : Fin 128, (l (ix2 p k) : EReal) * (r (ix2 k q) : EReal) :=
  matmul_zero_apply _ rfl rfl rfl rfl rfl rfl none l r p q

/-! ## The three lane sums of the body, each at a row -/

theorem sum_1024 (v : FVec Ideal S512x1024 .f32) (hφ : FTy.f32 = FTy.f32 ∨ FTy.f32 = FTy.bf16) (hacc : (0x00000000#32 : BitVec 32) = 0x00000000#32) (p : Fin 512) :
    multiReduction .add [1] S512 v 0x00000000#32 reduces_S512x1024_S512 hφ hacc (ix1 p) = ∑ k : Fin 1024, (v (ix2 p k) : EReal) :=
  rowSum_apply v _ _ hφ hacc p

theorem sum_128 (v : FVec Ideal S512x128 .f32) (hφ : FTy.f32 = FTy.f32 ∨ FTy.f32 = FTy.bf16) (hacc : (0x00000000#32 : BitVec 32) = 0x00000000#32) (p : Fin 512) :
    multiReduction .add [1] S512 v 0x00000000#32 reduces_S512x128_S512 hφ hacc (ix1 p) = ∑ k : Fin 128, (v (ix2 p k) : EReal) :=
  rowSum_apply v _ _ hφ hacc p

theorem sum_32 (v : FVec Ideal S512x32 .f32) (hφ : FTy.f32 = FTy.f32 ∨ FTy.f32 = FTy.bf16) (hacc : (0x00000000#32 : BitVec 32) = 0x00000000#32) (p : Fin 512) :
    multiReduction .add [1] S512 v 0x00000000#32 reduces_S512x32_S512 hφ hacc (ix1 p) = ∑ k : Fin 32, (v (ix2 p k) : EReal) :=
  rowSum_apply v _ _ hφ hacc p

/-! ## The bias row and the column of relaxations, at an entry -/

theorem bias_at (b : FVec Ideal S1024 .f32) (p : Fin 512) (h : Fin 1024) :
    broadcastTo S512x1024 (shapeCast S1x1024 b shapeCasts_S1024_S1x1024) broadcasts_S1x1024_S512x1024 (ix2 p h) = b (ix1 h) :=
  (broadcastTo_1b_ab_apply _ _ p h).trans (shapeCast_a_1a_apply b _ 0 h)

theorem column_at (v : FVec Ideal S512x1 .f32) (p : Fin 512) (c : Fin 32) :
    broadcastTo S512x32 v broadcasts_S512x1_S512x32 (ix2 p c) = v (ix2 p (0 : Fin 1)) :=
  broadcastTo_a1_ab_apply v _ p c

theorem ascolumn_at (v : FVec Ideal S512 .f32) (p : Fin 512) (u : Fin 1) :
    shapeCast S512x1 v shapeCasts_S512_S512x1 (ix2 p u) = v (ix1 p) :=
  shapeCast_a_a1_apply v _ p u

/-! ## The network -/

/-- The first layer's activations at row p: tanh of the row's product with the transposed first weight plus the bias. -/
theorem pay2_row (v0 : FVec Ideal S512x128 .f32) (v2 : FVec Ideal S128x1024 .bf16) (v5 : FVec Ideal S1024 .f32)
    (p : Fin 512) (h : Fin 1024) :
    k0_pay2 (F := Ideal) v0 v2 v5 (ix2 p h) = act1 v2 v5 (rowOf v0 p) h := by
  unfold k0_pay2 k0_pay1 act1
  simp only [tanh_at, addf_apply, mm_x_w1t, bias_at, truncf_apply, shapeCast_self]

/-- The second layer's. -/
theorem pay3_row (v0 : FVec Ideal S512x128 .f32) (v2 : FVec Ideal S128x1024 .bf16) (v5 : FVec Ideal S1024 .f32)
    (v11 : FVec Ideal S1024x1024 .bf16) (v14 : FVec Ideal S1024 .f32) (p : Fin 512) (j : Fin 1024) :
    k0_pay3 (F := Ideal) v0 v2 v5 v11 v14 (ix2 p j) = act2 v2 v5 v11 v14 (rowOf v0 p) j := by
  unfold k0_pay3 act2
  simp only [tanh_at, addf_apply, mm_h_w2, bias_at, truncf_apply, shapeCast_self, pay2_row]

/-- The Lyapunov value of row p. -/
theorem pay4_row (v0 : FVec Ideal S512x128 .f32) (v2 : FVec Ideal S128x1024 .bf16) (v5 : FVec Ideal S1024 .f32)
    (v11 : FVec Ideal S1024x1024 .bf16) (v14 : FVec Ideal S1024 .f32) (p : Fin 512) :
    k0_pay4 (F := Ideal) v0 v2 v5 v11 v14 (ix1 p) = lyap v2 v5 v11 v14 (rowOf v0 p) := by
  unfold k0_pay4 lyap
  simp only [mulf_apply, broadcast_apply]
  rw [sum_1024]
  simp only [mulf_apply, pay3_row]
  rfl

/-- The gradient of the value at row p, back through both layers. -/
theorem pay5_row (v0 : FVec Ideal S512x128 .f32) (v2 : FVec Ideal S128x1024 .bf16) (v5 : FVec Ideal S1024 .f32)
    (v11 : FVec Ideal S1024x1024 .bf16) (v14 : FVec Ideal S1024 .f32) (v28 : FVec Ideal S1024x1024 .bf16)
    (v36 : FVec Ideal S1024x128 .bf16) (p : Fin 512) (n : Fin 128) :
    k0_pay5 (F := Ideal) v0 v2 v5 v11 v14 v28 v36 (ix2 p n) = grad v2 v5 v11 v14 v28 v36 (rowOf v0 p) n := by
  unfold k0_pay5 grad back2
  simp only [mm_h_w1, mm_h_w2, truncf_apply, mulf_apply, subf_apply, broadcast_apply, shapeCast_self, pay3_row, pay2_row]
  rfl

/-! ## The quadratic program, from the row's bf16 copy v1, its gradient v38 and its value v22 -/

theorem pay6_row (v1 : FVec Ideal S512x128 .bf16) (v38 : FVec Ideal S512x128 .f32) (v39 : FVec Ideal S128x128 .bf16) (p : Fin 512) :
    k0_pay6 (F := Ideal) v1 v38 v39 (ix1 p) = lieF v39 (rowOf v1 p) (rowOf v38 p) := by
  unfold k0_pay6 lieF drift
  rw [sum_128]
  simp only [mulf_apply, mm_x_aft, shapeCast_self]

theorem pay7_row (v38 : FVec Ideal S512x128 .f32) (v45 : FVec Ideal S128x32 .bf16) (p : Fin 512) (c : Fin 32) :
    k0_pay7 (F := Ideal) v38 v45 (ix2 p c) = lieG v45 (rowOf v38 p) c := by
  unfold k0_pay7 lieG
  simp only [mm_x_c, truncf_apply, shapeCast_self]

theorem pay8_row (v1 : FVec Ideal S512x128 .bf16) (v48 : FVec Ideal S128x32 .bf16) (p : Fin 512) (c : Fin 32) :
    k0_pay8 (F := Ideal) v1 v48 (ix2 p c) = nominal v48 (rowOf v1 p) c := by
  unfold k0_pay8 nominal
  simp only [subf_apply, mm_x_c, broadcast_apply, shapeCast_self]
  show Ideal.ofBits .f32 0x00000000#32 - _ = _
  rw [Ideal.ofBits_zero_f32, zero_sub]

theorem pay9_row (v1 : FVec Ideal S512x128 .bf16) (v22 : FVec Ideal S512 .f32) (v38 : FVec Ideal S512x128 .f32)
    (v39 : FVec Ideal S128x128 .bf16) (v45 : FVec Ideal S128x32 .bf16) (v48 : FVec Ideal S128x32 .bf16) (p : Fin 512) :
    k0_pay9 (F := Ideal) v1 v22 v38 v39 v45 v48 (ix1 p)
      = relax v39 v45 v48 (rowOf v1 p) (rowOf v38 p) (v22 (ix1 p)) := by
  unfold k0_pay9 relax slack denom
  simp only [divf_apply, maximumf_apply, addf_apply, mulf_apply, broadcast_apply]
  rw [sum_32, sum_32]
  simp only [mulf_apply, pay6_row, pay7_row, pay8_row]
  rfl

theorem pay10_row (v1 : FVec Ideal S512x128 .bf16) (v22 : FVec Ideal S512 .f32) (v38 : FVec Ideal S512x128 .f32)
    (v39 : FVec Ideal S128x128 .bf16) (v45 : FVec Ideal S128x32 .bf16) (v48 : FVec Ideal S128x32 .bf16) (p : Fin 512) (c : Fin 32) :
    k0_pay10 (F := Ideal) v1 v22 v38 v39 v45 v48 (ix2 p c)
      = qpControl v39 v45 v48 (rowOf v1 p) (rowOf v38 p) (v22 (ix1 p)) c := by
  unfold k0_pay10 qpControl
  simp only [subf_apply, mulf_apply, column_at, ascolumn_at, broadcast_apply, pay7_row, pay8_row, pay9_row]
  rfl

theorem pay11_row (v1 : FVec Ideal S512x128 .bf16) (v22 : FVec Ideal S512 .f32) (v38 : FVec Ideal S512x128 .f32)
    (v39 : FVec Ideal S128x128 .bf16) (v45 : FVec Ideal S128x32 .bf16) (v48 : FVec Ideal S128x32 .bf16) (p : Fin 512) :
    k0_pay11 (F := Ideal) v1 v22 v38 v39 v45 v48 (ix1 p)
      = decay v39 v45 v48 (rowOf v1 p) (rowOf v38 p) (v22 (ix1 p)) := by
  unfold k0_pay11 decay
  simp only [addf_apply]
  rw [sum_32]
  simp only [mulf_apply, pay6_row, pay7_row, pay10_row]

end Cert.KernelIdeal.RowValue

end
-- ==== Proof.ArraySpec.lean ====
/-
  The four results as whole arrays: entry (b, c) of the control array, entry b of the relaxation, value and
  rate vectors are the controller's functions (RowSpec) of row b of the state array. The weight arrays and their
  transposed copies are arguments; which arrays they are is said by each program's value module.
-/
import proofs.«131149_j4483945857528_1_alg».proof.Proof.RowSpec

noncomputable section

namespace Cert.ClfQp

open Idealize.ShloMosaic Idealize.ShloMosaic.ValueIdx
open scoped BigOperators

section Arrays
variable (x : Mat 32768 128) (w1t : Mat 128 1024) (b1 : Vect 1024) (w2t : Mat 1024 1024) (b2 : Vect 1024)
  (w2 : Mat 1024 1024) (w1 : Mat 1024 128) (aft : Mat 128 128) (g : Mat 128 32) (kt : Mat 128 32)

/-- Row b of the state array. -/
abbrev rowAt (b : Fin 32768) : Fin 128 → EReal := fun k => x (ix2 b k)

/-- The Lyapunov value, the gradient, the relaxation, the control and the rate of row b. -/
def lyapAt (b : Fin 32768) : EReal := lyap w1t b1 w2t b2 (rowAt x b)
def gradAt (b : Fin 32768) : Fin 128 → EReal := grad w1t b1 w2t b2 w2 w1 (rowAt x b)
def relaxAt (b : Fin 32768) : EReal :=
  relax aft g kt (rowAt x b) (gradAt x w1t b1 w2t b2 w2 w1 b) (lyapAt x w1t b1 w2t b2 b)
def controlAt (b : Fin 32768) (c : Fin 32) : EReal :=
  qpControl aft g kt (rowAt x b) (gradAt x w1t b1 w2t b2 w2 w1 b) (lyapAt x w1t b1 w2t b2 b) c
def decayAt (b : Fin 32768) : EReal :=
  decay aft g kt (rowAt x b) (gradAt x w1t b1 w2t b2 w2 w1 b) (lyapAt x w1t b1 w2t b2 b)

/-- The four result arrays before the host's trailing unit axes. -/
def arrControl : Mat 32768 32 := fun i => controlAt x w1t b1 w2t b2 w2 w1 aft g kt (i 0) (i 1)
def arrLyap : Vect 32768 := fun i => lyapAt x w1t b1 w2t b2 (i 0)
def arrRelax : Vect 32768 := fun i => relaxAt x w1t b1 w2t b2 w2 w1 aft g kt (i 0)
def arrDecay : Vect 32768 := fun i => decayAt x w1t b1 w2t b2 w2 w1 aft g kt (i 0)

theorem arrControl_apply (b : Fin 32768) (c : Fin 32) :
    arrControl x w1t b1 w2t b2 w2 w1 aft g kt (ix2 b c) = controlAt x w1t b1 w2t b2 w2 w1 aft g kt b c := rfl
theorem arrLyap_apply (b : Fin 32768) : arrLyap x w1t b1 w2t b2 (ix1 b) = lyapAt x w1t b1 w2t b2 b := rfl
theorem arrRelax_apply (b : Fin 32768) :
    arrRelax x w1t b1 w2t b2 w2 w1 aft g kt (ix1 b) = relaxAt x w1t b1 w2t b2 w2 w1 aft g kt b := rfl
theorem arrDecay_apply (b : Fin 32768) :
    arrDecay x w1t b1 w2t b2 w2 w1 aft g kt (ix1 b) = decayAt x w1t b1 w2t b2 w2 w1 aft g kt b := rfl

end Arrays

end Cert.ClfQp

end
-- ==== Proof.KernelValue.lean ====
/-
  The idealized kernel's four output arrays after the run, as the controller's functions of the state array and of
  the weight arrays as the region finds them.

  The grid has 64 points; point t stages rows 512·t … 512·t + 511 of the state array and the whole of every weight
  array, and writes back rows 512·t … 512·t + 511 of each output. So what point t writes back is rows 512·t … of the
  whole-array function, the 64 blocks cover each output, and the array after the run is that function.
-/
import proofs.«131149_j4483945857528_1_alg».proof.Proof.Gen.KernelIdeal.Frame
import proofs.«131149_j4483945857528_1_alg».proof.Proof.KernelRow
import proofs.«131149_j4483945857528_1_alg».proof.Proof.ArraySpec
import Idealize.ShloMosaic.Lib.Pipeline.Value
import Idealize.ShloMosaic.Lib.Tactic

noncomputable section

namespace Cert.KernelIdeal.ArrValue

open Cert.KernelIdeal Cert.KernelIdeal.Gen Cert.KernelIdeal.RowValue Cert.ClfQp
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The arrays as the region finds them, and the blocks a point stages, at their literal types -/

abbrev entX (c : Dev nD) : FVec Ideal S32768x128 .f32 := V m c main_arg0
abbrev entW1 (c : Dev nD) : FVec Ideal S1024x128 .bf16 := V m c main_call0_v0
abbrev entW1T (c : Dev nD) : FVec Ideal S128x1024 .bf16 := V m c main_call0_v2
abbrev entB1 (c : Dev nD) : FVec Ideal S1024 .f32 := V m c main_arg2
abbrev entW2 (c : Dev nD) : FVec Ideal S1024x1024 .bf16 := V m c main_call0_v3
abbrev entW2T (c : Dev nD) : FVec Ideal S1024x1024 .bf16 := V m c main_call0_v5
abbrev entB2 (c : Dev nD) : FVec Ideal S1024 .f32 := V m c main_arg4
abbrev entAfT (c : Dev nD) : FVec Ideal S128x128 .bf16 := V m c main_call0_v7
abbrev entG (c : Dev nD) : FVec Ideal S128x32 .bf16 := V m c main_call0_v8
abbrev entKT (c : Dev nD) : FVec Ideal S128x32 .bf16 := V m c main_call0_v10

abbrev blkX (c : Dev nD) (t : Fin cfg0.N) : FVec Ideal S512x128 .f32 := iblk m c 0 t
abbrev blkW1 (c : Dev nD) (t : Fin cfg0.N) : FVec Ideal S1024x128 .bf16 := iblk m c 1 t
abbrev blkW1T (c : Dev nD) (t : Fin cfg0.N) : FVec Ideal S128x1024 .bf16 := iblk m c 2 t
abbrev blkB1 (c : Dev nD) (t : Fin cfg0.N) : FVec Ideal S1024 .f32 := iblk m c 3 t
abbrev blkW2 (c : Dev nD) (t : Fin cfg0.N) : FVec Ideal S1024x1024 .bf16 := iblk m c 4 t
abbrev blkW2T (c : Dev nD) (t : Fin cfg0.N) : FVec Ideal S1024x1024 .bf16 := iblk m c 5 t
abbrev blkB2 (c : Dev nD) (t : Fin cfg0.N) : FVec Ideal S1024 .f32 := iblk m c 6 t
abbrev blkAfT (c : Dev nD) (t : Fin cfg0.N) : FVec Ideal S128x128 .bf16 := iblk m c 7 t
abbrev blkG (c : Dev nD) (t : Fin cfg0.N) : FVec Ideal S128x32 .bf16 := iblk m c 8 t
abbrev blkKT (c : Dev nD) (t : Fin cfg0.N) : FVec Ideal S128x32 .bf16 := iblk m c 9 t

/-! ## The index maps, decided over the 64 points -/

/-- The state window and the four output windows are at block row t; every other block index is zero. -/
theorem idx_rows : ∀ t : Fin cfg0.N, win0_0.index t (0 : Fin 2) = t.val ∧ win0_0.index t (1 : Fin 2) = 0
    ∧ win0_10.index t (0 : Fin 2) = t.val ∧ win0_10.index t (1 : Fin 2) = 0
    ∧ win0_11.index t (0 : Fin 1) = t.val ∧ win0_12.index t (0 : Fin 1) = t.val ∧ win0_13.index t (0 : Fin 1) = t.val :=
  (by decide +kernel : ∀ t : Fin grid0.N, _)

/-- The weight windows stay at block zero. -/
theorem idx_weights : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem t_lt (t : Fin cfg0.N) : t.val < 64 := by
  have h := t.isLt
  have hN : cfg0.N = 64 := N_0
  omega

/-- Row p of point t's block is row 512·t + p of the array. -/
def rowIdx (t : Fin cfg0.N) (p : Fin 512) : Fin 32768 :=
  ⟨t.val * 512 + p.val, by have := t_lt t; have := p.isLt; omega⟩

/-! ## The staged blocks read off the arrays -/

theorem blkX_apply (c : Dev nD) (t : Fin cfg0.N) (p : Fin 512) (k : Fin 128) :
    blkX m c t (ix2 p k) = entX m c (ix2 (rowIdx t p) k) := by
  obtain ⟨e0, e1, -⟩ := idx_rows t
  show V m c main_arg0 (((cfg0.win 0).blk t).view.emb (ix2 p k)) = V m c main_arg0 (ix2 (rowIdx t p) k)
  congr 1
  funext a
  apply Fin.ext
  match a with
  | ⟨0, _⟩ => show win0_0.index t (0 : Fin 2) * 512 + 1 * p.val = t.val * 512 + p.val; omega
  | ⟨1, _⟩ => show win0_0.index t (1 : Fin 2) * 128 + 1 * k.val = k.val; omega

/-- A weight window's block is the whole array: its block index is zero on every axis. -/
theorem blkW1_eq (c : Dev nD) (t : Fin cfg0.N) : blkW1 m c t = entW1 m c := by
  obtain ⟨e0, e1, -⟩ := idx_weights t
  funext y
  show V m c main_call0_v0 (((cfg0.win 1).blk t).view.emb y) = V m c main_call0_v0 y
  congr 1
  funext a
  apply Fin.ext
  match a with
  | ⟨0, _⟩ => show win0_1.index t (0 : Fin 2) * 1024 + 1 * (y 0).val = (y 0).val; omega
  | ⟨1, _⟩ => show win0_1.index t (1 : Fin 2) * 128 + 1 * (y 1).val = (y 1).val; omega

theorem blkW1T_eq (c : Dev nD) (t : Fin cfg0.N) : blkW1T m c t = entW1T m c := by
  obtain ⟨-, -, e0, e1, -⟩ := idx_weights t
  funext y
  show V m c main_call0_v2 (((cfg0.win 2).blk t).view.emb y) = V m c main_call0_v2 y
  congr 1
  funext a
  apply Fin.ext
  match a with
  | ⟨0, _⟩ => show win0_2.index t (0 : Fin 2) * 128 + 1 * (y 0).val = (y 0).val; omega
  | ⟨1, _⟩ => show win0_2.index t (1 : Fin 2) * 1024 + 1 * (y 1).val = (y 1).val; omega

theorem blkB1_eq (c : Dev nD) (t : Fin cfg0.N) : blkB1 m c t = entB1 m c := by
  obtain ⟨-, -, -, -, e0, -⟩ := idx_weights t
  funext y
  show V m c main_arg2 (((cfg0.win 3).blk t).view.emb y) = V m c main_arg2 y
  congr 1
  funext a
  apply Fin.ext
  match a with
  | ⟨0, _⟩ => show win0_3.index t (0 : Fin 1) * 1024 + 1 * (y 0).val = (y 0).val; omega

theorem blkW2_eq (c : Dev nD) (t : Fin cfg0.N) : blkW2 m c t = entW2 m c := by
  obtain ⟨-, -, -, -, -, e0, e1, -⟩ := idx_weights t
  funext y
  show V m c main_call0_v3 (((cfg0.win 4).blk t).view.emb y) = V m c main_call0_v3 y
  congr 1
  funext a
  apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem blkW2T_eq (c : Dev nD) (t : Fin cfg0.N) : blkW2T m c t = entW2T m c := by
  obtain ⟨-, -, -, -, -, -, -, e0, e1, -⟩ := idx_weights t
  funext y
  show V m c main_call0_v5 (((cfg0.win 5).blk t).view.emb y) = V m c main_call0_v5 y
  congr 1
  funext a
  apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

theorem blkB2_eq (c : Dev nD) (t : Fin cfg0.N) : blkB2 m c t = entB2 m c := by
  obtain ⟨-, -, -, -, -, -, -, -, -, e0, -⟩ := idx_weights t
  funext y
  show V m c main_arg4 (((cfg0.win 6).blk t).view.emb y) = V m c main_arg4 y
  congr 1
  funext a
  apply Fin.ext
  match a with
  | ⟨0, _⟩ => show win0_6.index t (0 : Fin 1) * 1024 + 1 * (y 0).val = (y 0).val; omega

theorem blkAfT_eq (c : Dev nD) (t : Fin cfg0.N) : blkAfT m c t = entAfT m c := by
  obtain ⟨-, -, -, -, -, -, -, -, -, -, e0, e1, -⟩ := idx_weights t
  funext y
  show V m c main_call0_v7 (((cfg0.win 7).blk t).view.emb y) = V m c main_call0_v7 y
  congr 1
  funext a
  apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blkG_eq (c : Dev nD) (t : Fin cfg0.N) : blkG m c t = entG m c := by
  obtain ⟨-, -, -, -, -, -, -, -, -, -, -, -, e0, e1, -⟩ := idx_weights t
  funext y
  show V m c main_call0_v8 (((cfg0.win 8).blk t).view.emb y) = V m c main_call0_v8 y
  congr 1
  funext a
  apply Fin.ext
  match a with
  | ⟨0, _⟩ => show win0_8.index t (0 : Fin 2) * 128 + 1 * (y 0).val = (y 0).val; omega
  | ⟨1, _⟩ => show win0_8.index t (1 : Fin 2) * 32 + 1 * (y 1).val = (y 1).val; omega

theorem blkKT_eq (c : Dev nD) (t : Fin cfg0.N) : blkKT m c t = entKT m c := by
  obtain ⟨-, -, -, -, -, -, -, -, -, -, -, -, -, -, e0, e1⟩ := idx_weights t
  funext y
  show V m c main_call0_v10 (((cfg0.win 9).blk t).view.emb y) = V m c main_call0_v10 y
  congr 1
  funext a
  apply Fin.ext
  match a with
  | ⟨0, _⟩ => show win0_9.index t (0 : Fin 2) * 128 + 1 * (y 0).val = (y 0).val; omega
  | ⟨1, _⟩ => show win0_9.index t (1 : Fin 2) * 32 + 1 * (y 1).val = (y 1).val; omega

/-! ## The body's values at row p of point t, over the arrays -/

theorem rowX (c : Dev nD) (t : Fin cfg0.N) (p : Fin 512) : rowOf (blkX m c t) p = rowAt (entX m c) (rowIdx t p) :=
  funext fun k => blkX_apply m c t p k

theorem row1_point (c : Dev nD) (t : Fin cfg0.N) (p : Fin 512) :
    rowOf (k0_pay1 (F := Ideal) (blkX m c t)) p = rowAt (entX m c) (rowIdx t p) := rowX m c t p

theorem lyap_point (c : Dev nD) (t : Fin cfg0.N) (p : Fin 512) :
    k0_pay4 (F := Ideal) (blkX m c t) (entW1T m c) (entB1 m c) (entW2T m c) (entB2 m c) (ix1 p)
      = lyapAt (entX m c) (entW1T m c) (entB1 m c) (entW2T m c) (entB2 m c) (rowIdx t p) := by
  rw [pay4_row, rowX]
  rfl

theorem grad_point (c : Dev nD) (t : Fin cfg0.N) (p : Fin 512) :
    rowOf (k0_pay5 (F := Ideal) (blkX m c t) (entW1T m c) (entB1 m c) (entW2T m c) (entB2 m c) (entW2 m c) (entW1 m c)) p
      = gradAt (entX m c) (entW1T m c) (entB1 m c) (entW2T m c) (entB2 m c) (entW2 m c) (entW1 m c) (rowIdx t p) := by
  funext n
  show k0_pay5 (F := Ideal) (blkX m c t) (entW1T m c) (entB1 m c) (entW2T m c) (entB2 m c) (entW2 m c) (entW1 m c) (ix2 p n) = _
  rw [pay5_row, rowX]
  rfl

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- Entry (p, q) of point t's block of the control array is entry (512·t + p, q) of the array. -/
theorem emb10 (t : Fin cfg0.N) (p : Fin 512) (q : Fin 32) :
    (((cfg0.win 10).blk t).view.emb (ix2 p q) : S32768x32.Idx) = ix2 (rowIdx t p) q := by
  obtain ⟨-, -, e0, e1, -⟩ := idx_rows t
  funext a
  apply Fin.ext
  match a with
  | ⟨0, _⟩ => show win0_10.index t (0 : Fin 2) * 512 + 1 * p.val = t.val * 512 + p.val; omega
  | ⟨1, _⟩ => show win0_10.index t (1 : Fin 2) * 32 + 1 * q.val = q.val; omega

/-- Entry p of point t's block of a vector output is entry 512·t + p of the array. -/
theorem emb11 (t : Fin cfg0.N) (p : Fin 512) :
    (((cfg0.win 11).blk t).view.emb (ix1 p) : S32768.Idx) = ix1 (rowIdx t p) := by
  obtain ⟨-, -, -, -, e0, -⟩ := idx_rows t
  funext a
  apply Fin.ext
  match a with
  | ⟨0, _⟩ => show win0_11.index t (0 : Fin 1) * 512 + 1 * p.val = t.val * 512 + p.val; omega

theorem emb12 (t : Fin cfg0.N) (p : Fin 512) :
    (((cfg0.win 12).blk t).view.emb (ix1 p) : S32768.Idx) = ix1 (rowIdx t p) := by
  obtain ⟨-, -, -, -, -, e0, -⟩ := idx_rows t
  funext a
  apply Fin.ext
  match a with
  | ⟨0, _⟩ => show win0_12.index t (0 : Fin 1) * 512 + 1 * p.val = t.val * 512 + p.val; omega

theorem emb13 (t : Fin cfg0.N) (p : Fin 512) :
    (((cfg0.win 13).blk t).view.emb (ix1 p) : S32768.Idx) = ix1 (rowIdx t p) := by
  obtain ⟨-, -, -, -, -, -, e0⟩ := idx_rows t
  funext a
  apply Fin.ext
  match a with
  | ⟨0, _⟩ => show win0_13.index t (0 : Fin 1) * 512 + 1 * p.val = t.val * 512 + p.val; omega

/-- Point t writes back block t of the control array. -/
theorem flushed10_eq (c : Dev nD) (t : Fin cfg0.N) :
    (dats m 0 c).flushed 10 t = ((cfg0.win 10).blk t).view.read (Elt Ideal) (arrControl (entX m c) (entW1T m c) (entB1 m c) (entW2T m c) (entB2 m c) (entW2 m c) (entW1 m c) (entAfT m c) (entG m c) (entKT m c)) := by
  show (cfg0.win 10).cut (grid0.coords t) ((dats m 0 c).after 10 t) = _
  rw [after0_10]
  unfold out0_10
  rw [View.canon_unit_zero hz2]
  simp only [View.ld_unit_zero (S := S512x128) hz2, View.ld_unit_zero (S := S128x1024) hz2, View.ld_unit_zero (S := S1024) hz1, View.ld_unit_zero (S := S1024x1024) hz2, View.ld_unit_zero (S := S1024x128) hz2, View.ld_unit_zero (S := S128x128) hz2, View.ld_unit_zero (S := S128x32) hz2]
  funext j
  obtain ⟨p, q, rfl⟩ : ∃ (p : Fin 512) (q : Fin 32), j = ix2 p q := ⟨j 0, j 1, eq_ix2 j⟩
  show k0_pay10 (F := Ideal) (k0_pay1 (F := Ideal) (blkX m c t)) (k0_pay4 (F := Ideal) (blkX m c t) (blkW1T m c t) (blkB1 m c t) (blkW2T m c t) (blkB2 m c t)) (k0_pay5 (F := Ideal) (blkX m c t) (blkW1T m c t) (blkB1 m c t) (blkW2T m c t) (blkB2 m c t) (blkW2 m c t) (blkW1 m c t)) (blkAfT m c t) (blkG m c t) (blkKT m c t) (ix2 p q)
    = arrControl (entX m c) (entW1T m c) (entB1 m c) (entW2T m c) (entB2 m c) (entW2 m c) (entW1 m c) (entAfT m c) (entG m c) (entKT m c) (((cfg0.win 10).blk t).view.emb (ix2 p q))
  rw [emb10, arrControl_apply, blkW1_eq, blkW1T_eq, blkB1_eq, blkW2_eq, blkW2T_eq, blkB2_eq, blkAfT_eq, blkG_eq, blkKT_eq, pay10_row, row1_point, grad_point, lyap_point]
  rfl

/-- Point t writes back block t of the value vector. -/
theorem flushed11_eq (c : Dev nD) (t : Fin cfg0.N) :
    (dats m 0 c).flushed 11 t = ((cfg0.win 11).blk t).view.read (Elt Ideal) (arrLyap (entX m c) (entW1T m c) (entB1 m c) (entW2T m c) (entB2 m c)) := by
  show (cfg0.win 11).cut (grid0.coords t) ((dats m 0 c).after 11 t) = _
  rw [after0_11]
  unfold out0_11
  rw [View.canon_unit_zero hz1]
  simp only [View.ld_unit_zero (S := S512x128) hz2, View.ld_unit_zero (S := S128x1024) hz2, View.ld_unit_zero (S := S1024) hz1, View.ld_unit_zero (S := S1024x1024) hz2, View.ld_unit_zero (S := S1024x128) hz2, View.ld_unit_zero (S := S128x128) hz2, View.ld_unit_zero (S := S128x32) hz2]
  funext j
  obtain ⟨p, rfl⟩ : ∃ (p : Fin 512), j = ix1 p := ⟨j 0, eq_ix1 j⟩
  show k0_pay4 (F := Ideal) (blkX m c t) (blkW1T m c t) (blkB1 m c t) (blkW2T m c t) (blkB2 m c t) (ix1 p)
    = arrLyap (entX m c) (entW1T m c) (entB1 m c) (entW2T m c) (entB2 m c) (((cfg0.win 11).blk t).view.emb (ix1 p))
  rw [emb11, arrLyap_apply, blkW1T_eq, blkB1_eq, blkW2T_eq, blkB2_eq, lyap_point]

/-- Point t writes back block t of the relaxation vector. -/
theorem flushed12_eq (c : Dev nD) (t : Fin cfg0.N) :
    (dats m 0 c).flushed 12 t = ((cfg0.win 12).blk t).view.read (Elt Ideal) (arrRelax (entX m c) (entW1T m c) (entB1 m c) (entW2T m c) (entB2 m c) (entW2 m c) (entW1 m c) (entAfT m c) (entG m c) (entKT m c)) := by
  show (cfg0.win 12).cut (grid0.coords t) ((dats m 0 c).after 12 t) = _
  rw [after0_12]
  unfold out0_12
  rw [View.canon_unit_zero hz1]
  simp only [View.ld_unit_zero (S := S512x128) hz2, View.ld_unit_zero (S := S128x1024) hz2, View.ld_unit_zero (S := S1024) hz1, View.ld_unit_zero (S := S1024x1024) hz2, View.ld_unit_zero (S := S1024x128) hz2, View.ld_unit_zero (S := S128x128) hz2, View.ld_unit_zero (S := S128x32) hz2]
  funext j
  obtain ⟨p, rfl⟩ : ∃ (p : Fin 512), j = ix1 p := ⟨j 0, eq_ix1 j⟩
  show k0_pay9 (F := Ideal) (k0_pay1 (F := Ideal) (blkX m c t)) (k0_pay4 (F := Ideal) (blkX m c t) (blkW1T m c t) (blkB1 m c t) (blkW2T m c t) (blkB2 m c t)) (k0_pay5 (F := Ideal) (blkX m c t) (blkW1T m c t) (blkB1 m c t) (blkW2T m c t) (blkB2 m c t) (blkW2 m c t) (blkW1 m c t)) (blkAfT m c t) (blkG m c t) (blkKT m c t) (ix1 p)
    = arrRelax (entX m c) (entW1T m c) (entB1 m c) (entW2T m c) (entB2 m c) (entW2 m c) (entW1 m c) (entAfT m c) (entG m c) (entKT m c) (((cfg0.win 12).blk t).view.emb (ix1 p))
  rw [emb12, arrRelax_apply, blkW1_eq, blkW1T_eq, blkB1_eq, blkW2_eq, blkW2T_eq, blkB2_eq, blkAfT_eq, blkG_eq, blkKT_eq, pay9_row, row1_point, grad_point, lyap_point]
  rfl

/-- Point t writes back block t of the rate vector. -/
theorem flushed13_eq (c : Dev nD) (t : Fin cfg0.N) :
    (dats m 0 c).flushed 13 t = ((cfg0.win 13).blk t).view.read (Elt Ideal) (arrDecay (entX m c) (entW1T m c) (entB1 m c) (entW2T m c) (entB2 m c) (entW2 m c) (entW1 m c) (entAfT m c) (entG m c) (entKT m c)) := by
  show (cfg0.win 13).cut (grid0.coords t) ((dats m 0 c).after 13 t) = _
  rw [after0_13]
  unfold out0_13
  rw [View.canon_unit_zero hz1]
  simp only [View.ld_unit_zero (S := S512x128) hz2, View.ld_unit_zero (S := S128x1024) hz2, View.ld_unit_zero (S := S1024) hz1, View.ld_unit_zero (S := S1024x1024) hz2, View.ld_unit_zero (S := S1024x128) hz2, View.ld_unit_zero (S := S128x128) hz2, View.ld_unit_zero (S := S128x32) hz2]
  funext j
  obtain ⟨p, rfl⟩ : ∃ (p : Fin 512), j = ix1 p := ⟨j 0, eq_ix1 j⟩
  show k0_pay11 (F := Ideal) (k0_pay1 (F := Ideal) (blkX m c t)) (k0_pay4 (F := Ideal) (blkX m c t) (blkW1T m c t) (blkB1 m c t) (blkW2T m c t) (blkB2 m c t)) (k0_pay5 (F := Ideal) (blkX m c t) (blkW1T m c t) (blkB1 m c t) (blkW2T m c t) (blkB2 m c t) (blkW2 m c t) (blkW1 m c t)) (blkAfT m c t) (blkG m c t) (blkKT m c t) (ix1 p)
    = arrDecay (entX m c) (entW1T m c) (entB1 m c) (entW2T m c) (entB2 m c) (entW2 m c) (entW1 m c) (entAfT m c) (entG m c) (entKT m c) (((cfg0.win 13).blk t).view.emb (ix1 p))
  rw [emb13, arrDecay_apply, blkW1_eq, blkW1T_eq, blkB1_eq, blkW2_eq, blkW2T_eq, blkB2_eq, blkAfT_eq, blkG_eq, blkKT_eq, pay11_row, row1_point, grad_point, lyap_point]
  rfl

/-! ## The blocks cover the outputs -/

theorem mem_blk10 (t : Fin cfg0.N) (i : S32768x32.Idx) :
    i ∈ ((cfg0.win 10).blk t).view.set ↔ ∀ a : Fin 2, win0_10.index t a * S512x32.size a ≤ (i a).val ∧ (i a).val < win0_10.index t a * S512x32.size a + S512x32.size a := by
  show i ∈ ((View.whole main_v0_0).slice (win0_10.rect t)).set ↔ _
  rw [View.set_slice_whole, Rect.mem_set_unit]
  exact Iff.rfl

theorem mem_blk11 (t : Fin cfg0.N) (i : S32768.Idx) :
    i ∈ ((cfg0.win 11).blk t).view.set ↔ ∀ a : Fin 1, win0_11.index t a * S512.size a ≤ (i a).val ∧ (i a).val < win0_11.index t a * S512.size a + S512.size a := by
  show i ∈ ((View.whole main_v0_2).slice (win0_11.rect t)).set ↔ _
  rw [View.set_slice_whole, Rect.mem_set_unit]
  exact Iff.rfl

theorem mem_blk12 (t : Fin cfg0.N) (i : S32768.Idx) :
    i ∈ ((cfg0.win 12).blk t).view.set ↔ ∀ a : Fin 1, win0_12.index t a * S512.size a ≤ (i a).val ∧ (i a).val < win0_12.index t a * S512.size a + S512.size a := by
  show i ∈ ((View.whole main_call0_v11_2).slice (win0_12.rect t)).set ↔ _
  rw [View.set_slice_whole, Rect.mem_set_unit]
  exact Iff.rfl

theorem mem_blk13 (t : Fin cfg0.N) (i : S32768.Idx) :
    i ∈ ((cfg0.win 13).blk t).view.set ↔ ∀ a : Fin 1, win0_13.index t a * S512.size a ≤ (i a).val ∧ (i a).val < win0_13.index t a * S512.size a + S512.size a := by
  show i ∈ ((View.whole main_call0_v11_3).slice (win0_13.rect t)).set ↔ _
  rw [View.set_slice_whole, Rect.mem_set_unit]
  exact Iff.rfl

/-- The point that stages row r is r / 512. -/
theorem point_of_row (r : Nat) (hr : r < 32768) : ∃ t : Fin cfg0.N, t.val = r / 512 := by
  have hN : cfg0.N = 64 := N_0
  exact ⟨⟨r / 512, by omega⟩, rfl⟩

theorem cover10 (i : S32768x32.Idx) : ∃ t : Fin cfg0.N, (cfg0.win 10).flush t = true ∧ i ∈ ((cfg0.win 10).blk t).view.set := by
  have hi0 : (i 0).val < 32768 := (i 0).isLt
  have hi1 : (i 1).val < 32 := (i 1).isLt
  obtain ⟨t, ht⟩ := point_of_row (i 0).val hi0
  obtain ⟨-, -, e0, e1, -⟩ := idx_rows t
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 32 ≤ (i 1).val ∧ (i 1).val < win0_10.index t (1 : Fin 2) * 32 + 32; omega

theorem cover11 (i : S32768.Idx) : ∃ t : Fin cfg0.N, (cfg0.win 11).flush t = true ∧ i ∈ ((cfg0.win 11).blk t).view.set := by
  have hi0 : (i 0).val < 32768 := (i 0).isLt
  obtain ⟨t, ht⟩ := point_of_row (i 0).val hi0
  obtain ⟨-, -, -, -, e0, -⟩ := idx_rows t
  refine ⟨t, flush0_11 t, ?_⟩
  rw [mem_blk11]
  intro a
  match a with
  | ⟨0, _⟩ => show win0_11.index t (0 : Fin 1) * 512 ≤ (i 0).val ∧ (i 0).val < win0_11.index t (0 : Fin 1) * 512 + 512; omega

theorem cover12 (i : S32768.Idx) : ∃ t : Fin cfg0.N, (cfg0.win 12).flush t = true ∧ i ∈ ((cfg0.win 12).blk t).view.set := by
  have hi0 : (i 0).val < 32768 := (i 0).isLt
  obtain ⟨t, ht⟩ := point_of_row (i 0).val hi0
  obtain ⟨-, -, -, -, -, e0, -⟩ := idx_rows t
  refine ⟨t, flush0_12 t, ?_⟩
  rw [mem_blk12]
  intro a
  match a with
  | ⟨0, _⟩ => show win0_12.index t (0 : Fin 1) * 512 ≤ (i 0).val ∧ (i 0).val < win0_12.index t (0 : Fin 1) * 512 + 512; omega

theorem cover13 (i : S32768.Idx) : ∃ t : Fin cfg0.N, (cfg0.win 13).flush t = true ∧ i ∈ ((cfg0.win 13).blk t).view.set := by
  have hi0 : (i 0).val < 32768 := (i 0).isLt
  obtain ⟨t, ht⟩ := point_of_row (i 0).val hi0
  obtain ⟨-, -, -, -, -, -, e0⟩ := idx_rows t
  refine ⟨t, flush0_13 t, ?_⟩
  rw [mem_blk13]
  intro a
  match a with
  | ⟨0, _⟩ => show win0_13.index t (0 : Fin 1) * 512 ≤ (i 0).val ∧ (i 0).val < win0_13.index t (0 : Fin 1) * 512 + 512; omega

/-! ## The output arrays after the run -/

theorem final10 (c : Dev nD) : (dats m 0 c).arrAt 10 cfg0.N = arrControl (entX m c) (entW1T m c) (entB1 m c) (entW2T m c) (entB2 m c) (entW2 m c) (entW1 m c) (entAfT m c) (entG m c) (entKT m c) :=
  (dats m 0 c).arrAt_eq_of_cover 10 (arrControl (entX m c) (entW1T m c) (entB1 m c) (entW2T m c) (entB2 m c) (entW2 m c) (entW1 m c) (entAfT m c) (entG m c) (entKT m c)) (fun t _ => flushed10_eq m c t) cover10

theorem final11 (c : Dev nD) : (dats m 0 c).arrAt 11 cfg0.N = arrLyap (entX m c) (entW1T m c) (entB1 m c) (entW2T m c) (entB2 m c) :=
  (dats m 0 c).arrAt_eq_of_cover 11 (arrLyap (entX m c) (entW1T m c) (entB1 m c) (entW2T m c) (entB2 m c)) (fun t _ => flushed11_eq m c t) cover11

theorem final12 (c : Dev nD) : (dats m 0 c).arrAt 12 cfg0.N = arrRelax (entX m c) (entW1T m c) (entB1 m c) (entW2T m c) (entB2 m c) (entW2 m c) (entW1 m c) (entAfT m c) (entG m c) (entKT m c) :=
  (dats m 0 c).arrAt_eq_of_cover 12 (arrRelax (entX m c) (entW1T m c) (entB1 m c) (entW2T m c) (entB2 m c) (entW2 m c) (entW1 m c) (entAfT m c) (entG m c) (entKT m c)) (fun t _ => flushed12_eq m c t) cover12

theorem final13 (c : Dev nD) : (dats m 0 c).arrAt 13 cfg0.N = arrDecay (entX m c) (entW1T m c) (entB1 m c) (entW2T m c) (entB2 m c) (entW2 m c) (entW1 m c) (entAfT m c) (entG m c) (entKT m c) :=
  (dats m 0 c).arrAt_eq_of_cover 13 (arrDecay (entX m c) (entW1T m c) (entB1 m c) (entW2T m c) (entB2 m c) (entW2 m c) (entW1 m c) (entAfT m c) (entG m c) (entKT m c)) (fun t _ => flushed13_eq m c t) cover13

/-! ## The arrays the region finds, from the arguments

  The host lines before the region transpose W1, W2, A and K and change every weight's float format; at the extended
  reals a change of format is the identity, so the region finds the weights themselves and their transposes. -/

theorem entX_eq (c : Dev nD) : entX m c = m ((c : Thread nD τ).loc main_arg0) := V_main_arg0 m c
theorem entB1_eq (c : Dev nD) : entB1 m c = m ((c : Thread nD τ).loc main_arg2) := V_main_arg2 m c
theorem entB2_eq (c : Dev nD) : entB2 m c = m ((c : Thread nD τ).loc main_arg4) := V_main_arg4 m c

theorem entW1_eq (c : Dev nD) : entW1 m c = m ((c : Thread nD τ).loc main_arg1) := by
  show StableHlo.after hostOps0 (fun b => m (c, b)) (Proc.devRef .tc main_call0_v0) = _
  after_results
  rfl

theorem entW1T_eq (c : Dev nD) : entW1T m c = transpose S128x1024 [1, 0] (m ((c : Thread nD τ).loc main_arg1)) transposes_S1024x128_S128x1024_1_0 := by
  show StableHlo.after hostOps0 (fun b => m (c, b)) (Proc.devRef .tc main_call0_v2) = _
  after_results
  rfl

theorem entW2_eq (c : Dev nD) : entW2 m c = m ((c : Thread nD τ).loc main_arg3) := by
  show StableHlo.after hostOps0 (fun b => m (c, b)) (Proc.devRef .tc main_call0_v3) = _
  after_results
  rfl

theorem entW2T_eq (c : Dev nD) : entW2T m c = transpose S1024x1024 [1, 0] (m ((c : Thread nD τ).loc main_arg3)) transposes_S1024x1024_S1024x1024_1_0 := by
  show StableHlo.after hostOps0 (fun b => m (c, b)) (Proc.devRef .tc main_call0_v5) = _
  after_results
  rfl

theorem entAfT_eq (c : Dev nD) : entAfT m c = transpose S128x128 [1, 0] (m ((c : Thread nD τ).loc main_arg5)) transposes_S128x128_S128x128_1_0 := by
  show StableHlo.after hostOps0 (fun b => m (c, b)) (Proc.devRef .tc main_call0_v7) = _
  after_results
  rfl

theorem entG_eq (c : Dev nD) : entG m c = m ((c : Thread nD τ).loc main_arg6) := by
  show StableHlo.after hostOps0 (fun b => m (c, b)) (Proc.devRef .tc main_call0_v8) = _
  after_results
  rfl

theorem entKT_eq (c : Dev nD) : entKT m c = transpose S128x32 [1, 0] (m ((c : Thread nD τ).loc main_arg7)) transposes_S32x128_S128x32_1_0 := by
  show StableHlo.after hostOps0 (fun b => m (c, b)) (Proc.devRef .tc main_call0_v10) = _
  after_results
  rfl

/-! ## The host lines after the region: the relaxation and the rate get their trailing unit axes -/

theorem tail_relax (c : Dev nD) :
    Pipeline.afterTail₀ cfgs (dats m) 0 (V0 m) [hostOps1] c main_v0_1
      = broadcastInDim S32768x1 ![0] bcast_S32768_S32768x1_0 ((dats m 0 c).arrAt 12 cfg0.N) := by
  unfold Pipeline.afterTail₀
  show StableHlo.after hostOps1 _ (Proc.devRef .tc main_v0_1) = _
  after_results
  show broadcastInDim S32768x1 ![0] bcast_S32768_S32768x1_0
      (Pipeline.withArrays spec0 c (V0 m c) (fun w => (dats m 0 c).arrAt w cfg0.N) (Proc.devRef .tc (Pipeline.arrRef spec0 12))) = _
  rw [Pipeline.withArrays_arr spec0 launch0.win.arr_inj]

theorem tail_decay (c : Dev nD) :
    Pipeline.afterTail₀ cfgs (dats m) 0 (V0 m) [hostOps1] c main_v0_3
      = broadcastInDim S32768x1x1 ![0] bcast_S32768_S32768x1x1_0 ((dats m 0 c).arrAt 13 cfg0.N) := by
  unfold Pipeline.afterTail₀
  show StableHlo.after hostOps1 _ (Proc.devRef .tc main_v0_3) = _
  after_results
  show broadcastInDim S32768x1x1 ![0] bcast_S32768_S32768x1x1_0
      (Pipeline.withArrays spec0 c (V0 m c) (fun w => (dats m 0 c).arrAt w cfg0.N) (Proc.devRef .tc (Pipeline.arrRef spec0 13))) = _
  rw [Pipeline.withArrays_arr spec0 launch0.win.arr_inj]

/-! ## The four results from the arguments -/

theorem result_control (c : Dev nD) : (dats m 0 c).arrAt 10 cfg0.N = arrControl (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0) := by
  rw [final10, entX_eq, entW1T_eq, entB1_eq, entW2T_eq, entB2_eq, entW2_eq, entW1_eq, entAfT_eq, entG_eq, entKT_eq]

theorem result_relax (c : Dev nD) :
    Pipeline.afterTail₀ cfgs (dats m) 0 (V0 m) [hostOps1] c main_v0_1
      = broadcastInDim S32768x1 ![0] bcast_S32768_S32768x1_0 (arrRelax (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0)) := by
  rw [tail_relax, final12, entX_eq, entW1T_eq, entB1_eq, entW2T_eq, entB2_eq, entW2_eq, entW1_eq, entAfT_eq, entG_eq, entKT_eq]

theorem result_lyap (c : Dev nD) : (dats m 0 c).arrAt 11 cfg0.N = arrLyap (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) := by
  rw [final11, entX_eq, entW1T_eq, entB1_eq, entW2T_eq, entB2_eq]

theorem result_decay (c : Dev nD) :
    Pipeline.afterTail₀ cfgs (dats m) 0 (V0 m) [hostOps1] c main_v0_3
      = broadcastInDim S32768x1x1 ![0] bcast_S32768_S32768x1x1_0 (arrDecay (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0)) := by
  rw [tail_decay, final13, entX_eq, entW1T_eq, entB1_eq, entW2T_eq, entB2_eq, entW2_eq, entW1_eq, entAfT_eq, entG_eq, entKT_eq]

/-! ## The run, read -/

/-- Every weakly fair execution of the idealized kernel terminates with the four results at the controller's
    functions of the arguments (the weights' transposes as the host lines compute them) and the arguments unchanged. -/
theorem run : θ_run defs (onTc (τ := τ) (main (F := Ideal))) ⟨m, fun _ => 0, ρ⟩ fun r => ∀ c : Dev nD,
      r.2.mem ((c : Thread nD τ).loc main_v0_0) = arrControl (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0)
      ∧ r.2.mem ((c : Thread nD τ).loc main_v0_1) = broadcastInDim S32768x1 ![0] bcast_S32768_S32768x1_0 (arrRelax (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0))
      ∧ r.2.mem ((c : Thread nD τ).loc main_v0_2) = arrLyap (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4))
      ∧ r.2.mem ((c : Thread nD τ).loc main_v0_3) = broadcastInDim S32768x1x1 ![0] bcast_S32768_S32768x1x1_0 (arrDecay (m ((c : Thread nD τ).loc main_arg0)) (transpose S128x1024 [1, 0] (m ((c : Thread nD τ).loc main_arg1)) transposes_S1024x128_S128x1024_1_0) (m ((c : Thread nD τ).loc main_arg2)) (transpose S1024x1024 [1, 0] (m ((c : Thread nD τ).loc main_arg3)) transposes_S1024x1024_S1024x1024_1_0) (m ((c : Thread nD τ).loc main_arg4)) (m ((c : Thread nD τ).loc main_arg3)) (m ((c : Thread nD τ).loc main_arg1)) (transpose S128x128 [1, 0] (m ((c : Thread nD τ).loc main_arg5)) transposes_S128x128_S128x128_1_0) (m ((c : Thread nD τ).loc main_arg6)) (transpose S128x32 [1, 0] (m ((c : Thread nD τ).loc main_arg7)) transposes_S32x128_S128x32_1_0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨
      ((h c).1 10).trans (result_control m c),
      ((h c).2 main_v0_1 (Pipeline.mem_restRefs_of main_v0_1 (by decide) (by decide))).trans (result_relax m c),
      ((h c).1 11).trans (result_lyap m c),
      ((h c).2 main_v0_3 (Pipeline.mem_restRefs_of main_v0_3 (by decide) (by decide))).trans (result_decay m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 6).trans (((dats m 0 c).arrAt_in 6 rfl _).trans ((A_eq m c 6).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.ArrValue

end
-- ==== Proof.RefRow.lean ====
/-
  The reference's stages, one batch row at a time, on the extended reals: each stage of the host program at row b
  is the controller's function (RowSpec) of row b of the state array, of the weight arrays, and of the transposed
  copies the program itself makes (the transposes are kept as the arrays the program computes: nothing here reads
  one at an entry). A host dot_general is the sum over the contracted coordinate, a host sum its initial value, zero,
  plus the sum over the reduced coordinate, and the host's negation, quotient, maximum and tanh are the kernel's.
-/
import proofs.«131149_j4483945857528_1_alg».proof.Proof.Gen.ReferenceIdeal.Read
import proofs.«131149_j4483945857528_1_alg».proof.Proof.RowSpec
import proofs.«131149_j4483945857528_1_alg».proof.Proof.LibPlainDot

noncomputable section

namespace Cert.ReferenceIdeal.RowValue

open Cert.ReferenceIdeal Cert.ReferenceIdeal.Gen Cert.ReferenceIdeal.Read Cert.ClfQp
open Idealize.ShloMosaic Idealize.ShloMosaic.ValueIdx Idealize.ShloMosaic.PlainDot
open scoped BigOperators

variable [Cert.ReferenceIdeal.Facts]

/-- Two indices of a rank-2 (rank-1, rank-3) array with the same coordinates are equal. -/
local macro "coords2" : tactic => `(tactic| (funext a; match a with | ⟨0, _⟩ => rfl | ⟨1, _⟩ => rfl))
local macro "coords1" : tactic => `(tactic| (funext a; match a with | ⟨0, _⟩ => rfl))

/-- An f32 array of the reference at the extended reals. -/
abbrev Arr (s : Shape) : Type := (⟨s, .f32⟩ : BufTy).Contents (Elt Ideal)

variable (x0 : Arr S32768x128) (x1 : Arr S1024x128) (x2 : Arr S1024) (x3 : Arr S1024x1024) (x4 : Arr S1024)
  (x5 : Arr S128x128) (x6 : Arr S128x32) (x7 : Arr S32x128)

/-- Row b of the state array. -/
abbrev rowR (b : Fin 32768) : Fin 128 → EReal := fun k => x0 (ix2 b k)

/-- The row's Lyapunov value and gradient, over the arrays the reference contracts with. -/
abbrev lyapR (b : Fin 32768) : EReal :=
  lyap (val_main_v0 (F := Ideal) x1) x2 (val_main_v6 (F := Ideal) x3) x4 (rowR x0 b)
abbrev gradR (b : Fin 32768) : Fin 128 → EReal :=
  grad (val_main_v0 (F := Ideal) x1) x2 (val_main_v6 (F := Ideal) x3) x4 x3 x1 (rowR x0 b)

/-! ## The network -/

theorem ref_act1 (b : Fin 32768) (h : Fin 1024) :
    val_main_v5 (F := Ideal) x0 x1 x2 (ix2 b h) = act1 (val_main_v0 (F := Ideal) x1) x2 (rowR x0 b) h := by
  have e1 : ∀ k, lidx_main_v1 (ix2 b h) k = ix2 b k := fun k => by coords2
  have e2 : ∀ k, ridx_main_v1 (ix2 b h) k = ix2 k h := fun k => by coords2
  have e3 : idx_main_v2 (idx_main_v3 (ix2 b h)) = ix1 h := by coords1
  rw [val_main_v5_apply, val_main_v4_apply, val_main_v1_apply, val_main_v3_apply, val_main_v2_apply]
  simp only [e1, e2, e3]
  rfl

theorem ref_act2 (b : Fin 32768) (j : Fin 1024) :
    val_main_v11 (F := Ideal) x0 x1 x2 x3 x4 (ix2 b j)
      = act2 (val_main_v0 (F := Ideal) x1) x2 (val_main_v6 (F := Ideal) x3) x4 (rowR x0 b) j := by
  have e1 : ∀ k, lidx_main_v7 (ix2 b j) k = ix2 b k := fun k => by coords2
  have e2 : ∀ k, ridx_main_v7 (ix2 b j) k = ix2 k j := fun k => by coords2
  have e3 : idx_main_v8 (idx_main_v9 (ix2 b j)) = ix1 j := by coords1
  rw [val_main_v11_apply, val_main_v10_apply, val_main_v7_apply, val_main_v9_apply, val_main_v8_apply]
  simp only [e1, e2, e3, ref_act1]
  rfl

theorem ref_lyap (b : Fin 32768) :
    val_main_v15 (F := Ideal) x0 x1 x2 x3 x4 (ix1 b) = lyapR x0 x1 x2 x3 x4 b := by
  have e1 : ∀ k, idx_main_v13 (ix1 b) k = ix2 b k := fun k => by coords2
  rw [val_main_v15_apply, val_main_v14_apply, val_main_cst_0_apply, val_main_v13_apply, val_main_cst_apply]
  simp only [e1, val_main_v12_apply, ref_act2, Ideal.ofBits_def, Ideal.ofBits_zero_f32, zero_add]
  rfl

theorem ref_back2 (b : Fin 32768) (h : Fin 1024) :
    val_main_v20 (F := Ideal) x0 x1 x2 x3 x4 (ix2 b h)
      = back2 (val_main_v0 (F := Ideal) x1) x2 (val_main_v6 (F := Ideal) x3) x4 x3 (rowR x0 b) h := by
  have e1 : ∀ k, lidx_main_v20 (ix2 b h) k = ix2 b k := fun k => by coords2
  have e2 : ∀ k, ridx_main_v20 (ix2 b h) k = ix2 k h := fun k => by coords2
  rw [val_main_v20_apply]
  simp only [e1, e2, val_main_v19_apply, val_main_v18_apply, val_main_v17_apply, val_main_cst_1_apply, val_main_v16_apply, ref_act2]
  rfl

theorem ref_grad (b : Fin 32768) (n : Fin 128) :
    val_main_v25 (F := Ideal) x0 x1 x2 x3 x4 (ix2 b n) = gradR x0 x1 x2 x3 x4 b n := by
  have e1 : ∀ k, lidx_main_v25 (ix2 b n) k = ix2 b k := fun k => by coords2
  have e2 : ∀ k, ridx_main_v25 (ix2 b n) k = ix2 k n := fun k => by coords2
  rw [val_main_v25_apply]
  simp only [e1, e2, val_main_v24_apply, val_main_v23_apply, val_main_v22_apply, val_main_cst_2_apply, val_main_v21_apply,
    ref_back2, ref_act1]
  rfl

/-! ## The quadratic program -/

theorem ref_drift (b : Fin 32768) (n : Fin 128) :
    val_main_v27 (F := Ideal) x0 x5 (ix2 b n) = drift (val_main_v26 (F := Ideal) x5) (rowR x0 b) n := by
  have e1 : ∀ k, lidx_main_v27 (ix2 b n) k = ix2 b k := fun k => by coords2
  have e2 : ∀ k, ridx_main_v27 (ix2 b n) k = ix2 k n := fun k => by coords2
  rw [val_main_v27_apply]
  simp only [e1, e2]
  rfl

theorem ref_lieF (b : Fin 32768) :
    val_main_v29 (F := Ideal) x0 x1 x2 x3 x4 x5 (ix1 b)
      = lieF (val_main_v26 (F := Ideal) x5) (rowR x0 b) (gradR x0 x1 x2 x3 x4 b) := by
  have e1 : ∀ k, idx_main_v29 (ix1 b) k = ix2 b k := fun k => by coords2
  rw [val_main_v29_apply, val_main_cst_3_apply]
  simp only [e1, val_main_v28_apply, ref_grad, ref_drift, Ideal.ofBits_def, Ideal.ofBits_zero_f32, zero_add]
  rfl

/-- The same value after the reference's keepdims column and its reshape back to a vector (twice in the program). -/
theorem ref_lieF_35 (b : Fin 32768) :
    val_main_v35 (F := Ideal) x0 x1 x2 x3 x4 x5 (ix1 b)
      = lieF (val_main_v26 (F := Ideal) x5) (rowR x0 b) (gradR x0 x1 x2 x3 x4 b) := by
  have e1 : idx_main_v30 (ix2 b (0 : Fin 1)) = ix1 b := by coords1
  unfold val_main_v35
  rw [shapeCast_a1_a_apply, val_main_v30_apply, e1, ref_lieF]

theorem ref_lieF_57 (b : Fin 32768) :
    val_main_v57 (F := Ideal) x0 x1 x2 x3 x4 x5 (ix1 b)
      = lieF (val_main_v26 (F := Ideal) x5) (rowR x0 b) (gradR x0 x1 x2 x3 x4 b) := by
  have e1 : idx_main_v30 (ix2 b (0 : Fin 1)) = ix1 b := by coords1
  unfold val_main_v57
  rw [shapeCast_a1_a_apply, val_main_v30_apply, e1, ref_lieF]

theorem ref_lieG (b : Fin 32768) (c : Fin 32) :
    val_main_v31 (F := Ideal) x0 x1 x2 x3 x4 x6 (ix2 b c) = lieG x6 (gradR x0 x1 x2 x3 x4 b) c := by
  have e1 : ∀ k, lidx_main_v31 (ix2 b c) k = ix2 b k := fun k => by coords2
  have e2 : ∀ k, ridx_main_v31 (ix2 b c) k = ix2 k c := fun k => by coords2
  rw [val_main_v31_apply]
  simp only [e1, e2, ref_grad]
  rfl

theorem ref_nominal (b : Fin 32768) (c : Fin 32) :
    val_main_v34 (F := Ideal) x0 x7 (ix2 b c) = nominal (val_main_v32 (F := Ideal) x7) (rowR x0 b) c := by
  have e1 : ∀ k, lidx_main_v33 (ix2 b c) k = ix2 b k := fun k => by coords2
  have e2 : ∀ k, ridx_main_v33 (ix2 b c) k = ix2 k c := fun k => by coords2
  rw [val_main_v34_apply, val_main_v33_apply]
  simp only [e1, e2]
  rfl

theorem ref_slack (b : Fin 32768) :
    val_main_v41 (F := Ideal) x0 x1 x2 x3 x4 x5 x6 x7 (ix1 b)
      = slack (val_main_v26 (F := Ideal) x5) x6 (val_main_v32 (F := Ideal) x7) (rowR x0 b) (gradR x0 x1 x2 x3 x4 b)
          (lyapR x0 x1 x2 x3 x4 b) := by
  have e1 : ∀ k, idx_main_v40 (ix1 b) k = ix2 b k := fun k => by coords2
  rw [val_main_v41_apply, val_main_v38_apply, val_main_v37_apply, val_main_v36_apply, val_main_cst_4_apply,
    val_main_v40_apply, val_main_cst_5_apply]
  simp only [e1, val_main_v39_apply, ref_lieF_35, ref_lyap, ref_lieG, ref_nominal, Ideal.ofBits_def, Ideal.ofBits_zero_f32,
    zero_add]
  rfl

theorem ref_denom (b : Fin 32768) :
    val_main_v49 (F := Ideal) x0 x1 x2 x3 x4 x6 (ix1 b) = denom x6 (gradR x0 x1 x2 x3 x4 b) := by
  have e1 : ∀ k, idx_main_v45 (ix1 b) k = ix2 b k := fun k => by coords2
  rw [val_main_v49_apply, val_main_v48_apply, val_main_cst_9_apply, val_main_v47_apply, val_main_v46_apply,
    val_main_cst_8_apply, val_main_v45_apply, val_main_cst_7_apply]
  simp only [e1, val_main_v44_apply, ref_lieG, Ideal.ofBits_def, Ideal.ofBits_zero_f32, zero_add]
  rfl

theorem ref_relax (b : Fin 32768) :
    val_main_v50 (F := Ideal) x0 x1 x2 x3 x4 x5 x6 x7 (ix1 b)
      = relax (val_main_v26 (F := Ideal) x5) x6 (val_main_v32 (F := Ideal) x7) (rowR x0 b) (gradR x0 x1 x2 x3 x4 b)
          (lyapR x0 x1 x2 x3 x4 b) := by
  rw [val_main_v50_apply, val_main_v43_apply, val_main_v42_apply, val_main_cst_6_apply, ref_slack, ref_denom]
  rfl

theorem ref_control (b : Fin 32768) (c : Fin 32) :
    val_main_v56 (F := Ideal) x0 x1 x2 x3 x4 x5 x6 x7 (ix2 b c)
      = qpControl (val_main_v26 (F := Ideal) x5) x6 (val_main_v32 (F := Ideal) x7) (rowR x0 b) (gradR x0 x1 x2 x3 x4 b)
          (lyapR x0 x1 x2 x3 x4 b) c := by
  have e1 : idx_main_v51 (idx_main_v54 (ix2 b c)) = ix1 b := by coords1
  rw [val_main_v56_apply, val_main_v55_apply, val_main_v54_apply, val_main_v53_apply, val_main_v52_apply,
    val_main_cst_10_apply, val_main_v51_apply, e1, ref_relax, ref_nominal, ref_lieG]
  rfl

theorem ref_decay (b : Fin 32768) :
    val_main_v60 (F := Ideal) x0 x1 x2 x3 x4 x5 x6 x7 (ix1 b)
      = decay (val_main_v26 (F := Ideal) x5) x6 (val_main_v32 (F := Ideal) x7) (rowR x0 b) (gradR x0 x1 x2 x3 x4 b)
          (lyapR x0 x1 x2 x3 x4 b) := by
  have e1 : ∀ k, idx_main_v59 (ix1 b) k = ix2 b k := fun k => by coords2
  rw [val_main_v60_apply, val_main_v59_apply, val_main_cst_11_apply]
  simp only [e1, val_main_v58_apply, ref_lieF_57, ref_lieG, ref_control, Ideal.ofBits_def, Ideal.ofBits_zero_f32, zero_add]
  rfl

/-! ## The four results, each at an entry -/

theorem out_control (b : Fin 32768) (c : Fin 32) :
    val_main_v56 (F := Ideal) x0 x1 x2 x3 x4 x5 x6 x7 (ix2 b c)
      = qpControl (val_main_v26 (F := Ideal) x5) x6 (val_main_v32 (F := Ideal) x7) (rowR x0 b) (gradR x0 x1 x2 x3 x4 b)
          (lyapR x0 x1 x2 x3 x4 b) c := ref_control x0 x1 x2 x3 x4 x5 x6 x7 b c

theorem out_relax (b : Fin 32768) (u : Fin 1) :
    val_main_v62 (F := Ideal) x0 x1 x2 x3 x4 x5 x6 x7 (ix2 b u)
      = relax (val_main_v26 (F := Ideal) x5) x6 (val_main_v32 (F := Ideal) x7) (rowR x0 b) (gradR x0 x1 x2 x3 x4 b)
          (lyapR x0 x1 x2 x3 x4 b) := by
  have e1 : idx_main_v62 (ix2 b u) = ix1 b := by coords1
  rw [val_main_v62_apply, e1, ref_relax]

theorem out_decay (b : Fin 32768) (u w : Fin 1) :
    val_main_v61 (F := Ideal) x0 x1 x2 x3 x4 x5 x6 x7 (ix3 b u w)
      = decay (val_main_v26 (F := Ideal) x5) x6 (val_main_v32 (F := Ideal) x7) (rowR x0 b) (gradR x0 x1 x2 x3 x4 b)
          (lyapR x0 x1 x2 x3 x4 b) := by
  have e1 : idx_main_v61 (ix3 b u w) = ix1 b := by coords1
  rw [val_main_v61_apply, e1, ref_decay]

end Cert.ReferenceIdeal.RowValue

end
-- ==== Proof.RefValue.lean ====
/-
  The reference's four results as whole arrays: the controller's functions of the state array, of the weight arrays
  and of the transposes the reference computes; the relaxation and the rate end behind the host's trailing unit axes.
-/
import proofs.«131149_j4483945857528_1_alg».proof.Proof.RefRow
import proofs.«131149_j4483945857528_1_alg».proof.Proof.ArraySpec

noncomputable section

namespace Cert.ReferenceIdeal.ArrValue

open Cert.ReferenceIdeal Cert.ReferenceIdeal.Gen Cert.ReferenceIdeal.Read Cert.ReferenceIdeal.RowValue Cert.ClfQp
open Idealize.ShloMosaic Idealize.ShloMosaic.ValueIdx
open scoped BigOperators

variable [Cert.ReferenceIdeal.Facts]

variable (x0 : Arr S32768x128) (x1 : Arr S1024x128) (x2 : Arr S1024) (x3 : Arr S1024x1024) (x4 : Arr S1024)
  (x5 : Arr S128x128) (x6 : Arr S128x32) (x7 : Arr S32x128)

/-- The control array. -/
theorem control_eq : val_main_v56 (F := Ideal) x0 x1 x2 x3 x4 x5 x6 x7 = arrControl x0 (val_main_v0 (F := Ideal) x1) x2 (val_main_v6 (F := Ideal) x3) x4 x3 x1 (val_main_v26 (F := Ideal) x5) x6 (val_main_v32 (F := Ideal) x7) := by
  funext i
  obtain ⟨b, c, rfl⟩ : ∃ (b : Fin 32768) (c : Fin 32), i = ix2 b c := ⟨i 0, i 1, eq_ix2 i⟩
  rw [arrControl_apply]
  exact ref_control x0 x1 x2 x3 x4 x5 x6 x7 b c

/-- The value vector. -/
theorem lyap_eq : val_main_v15 (F := Ideal) x0 x1 x2 x3 x4 = arrLyap x0 (val_main_v0 (F := Ideal) x1) x2 (val_main_v6 (F := Ideal) x3) x4 := by
  funext i
  obtain ⟨b, rfl⟩ : ∃ (b : Fin 32768), i = ix1 b := ⟨i 0, eq_ix1 i⟩
  rw [arrLyap_apply]
  exact ref_lyap x0 x1 x2 x3 x4 b

/-- The relaxation vector, before its trailing unit axis. -/
theorem relax_eq : val_main_v50 (F := Ideal) x0 x1 x2 x3 x4 x5 x6 x7 = arrRelax x0 (val_main_v0 (F := Ideal) x1) x2 (val_main_v6 (F := Ideal) x3) x4 x3 x1 (val_main_v26 (F := Ideal) x5) x6 (val_main_v32 (F := Ideal) x7) := by
  funext i
  obtain ⟨b, rfl⟩ : ∃ (b : Fin 32768), i = ix1 b := ⟨i 0, eq_ix1 i⟩
  rw [arrRelax_apply]
  exact ref_relax x0 x1 x2 x3 x4 x5 x6 x7 b

/-- The rate vector, before its two trailing unit axes. -/
theorem decay_eq : val_main_v60 (F := Ideal) x0 x1 x2 x3 x4 x5 x6 x7 = arrDecay x0 (val_main_v0 (F := Ideal) x1) x2 (val_main_v6 (F := Ideal) x3) x4 x3 x1 (val_main_v26 (F := Ideal) x5) x6 (val_main_v32 (F := Ideal) x7) := by
  funext i
  obtain ⟨b, rfl⟩ : ∃ (b : Fin 32768), i = ix1 b := ⟨i 0, eq_ix1 i⟩
  rw [arrDecay_apply]
  exact ref_decay x0 x1 x2 x3 x4 x5 x6 x7 b

/-- The relaxation as returned: the vector with a trailing unit axis. -/
theorem relax_out_eq : val_main_v62 (F := Ideal) x0 x1 x2 x3 x4 x5 x6 x7
    = broadcastInDim S32768x1 ![0] bcast_S32768_S32768x1_0 (arrRelax x0 (val_main_v0 (F := Ideal) x1) x2 (val_main_v6 (F := Ideal) x3) x4 x3 x1 (val_main_v26 (F := Ideal) x5) x6 (val_main_v32 (F := Ideal) x7)) := by
  unfold val_main_v62
  rw [relax_eq]

/-- The rate as returned: the vector with two trailing unit axes. -/
theorem decay_out_eq : val_main_v61 (F := Ideal) x0 x1 x2 x3 x4 x5 x6 x7
    = broadcastInDim S32768x1x1 ![0] bcast_S32768_S32768x1x1_0 (arrDecay x0 (val_main_v0 (F := Ideal) x1) x2 (val_main_v6 (F := Ideal) x3) x4 x3 x1 (val_main_v26 (F := Ideal) x5) x6 (val_main_v32 (F := Ideal) x7)) := by
  unfold val_main_v61
  rw [decay_eq]

end Cert.ReferenceIdeal.ArrValue

end
-- ==== Proof.lean ====
/-
  A control-Lyapunov controller, one batch row at a time: the Pallas kernel against its jnp reference, equal over the
  extended reals.

  For each of the 32768 state rows x both programs compute a1 = tanh (W1 x + b1), a2 = tanh (W2 a1 + b2), the value
  V = ½ Σ a2², its gradient back through both layers, grad = W1ᵀ ((W2ᵀ (a2 ∘ (1 − a2²))) ∘ (1 − a1²)), then
  L_f = ⟨grad, A x⟩, L_g = Gᵀ grad, u_nom = −K x, the relaxation r = max (L_f + 1·V + ⟨L_g, u_nom⟩, 0) / (1 + 100 ‖L_g‖²),
  the control u = u_nom − (100 r) L_g and the rate V̇ = L_f + ⟨L_g, u⟩; they return u, r as a column, V, and V̇ with two
  trailing unit axes.

  The kernel runs 64 grid points of 512 rows each with every weight staged whole, its matrix products in bf16 into
  f32 zero accumulators and its sums along the lanes; the reference is straight-line jnp over the whole batch. On the
  extended reals a change of float format is the identity, a matrix product into zero and a dot_general are the same
  sum over the contracted coordinate, a lane sum and a host sum from zero are the same finite sum, and the kernel's
  0 − K x is the reference's −(K x). Both programs apply the same operations in the same order and grouping to the same
  sums, so no law of arithmetic beyond those is used, and nothing needs the inputs to be finite.

  The modules: RowSpec (the controller of one row), ArraySpec (the four result arrays), LibPlainDot (a plain matrix
  product, a row sum and the keepdims layout casts read at an entry), KernelRow (the kernel body's values at a row),
  KernelValue (blocks to arrays, the host lines around the region, the kernel's run), RefRow and RefValue (the
  reference's stages at a row, its result arrays). The frames of the two kernels are the generated ones; the
  reference's frame is its generated run with the results dropped.
-/
import proofs.«131149_j4483945857528_1_alg».proof.Defs
import proofs.«131149_j4483945857528_1_alg».proof.Proof.Gen.Kernel
import proofs.«131149_j4483945857528_1_alg».proof.Proof.Gen.Kernel.Skeleton
import proofs.«131149_j4483945857528_1_alg».proof.Proof.Gen.Kernel.Launch
import proofs.«131149_j4483945857528_1_alg».proof.Proof.Gen.Kernel.Points
import proofs.«131149_j4483945857528_1_alg».proof.Proof.Gen.Kernel.Frame
import proofs.«131149_j4483945857528_1_alg».proof.Proof.Gen.KernelIdeal
import proofs.«131149_j4483945857528_1_alg».proof.Proof.Gen.KernelIdeal.Skeleton
import proofs.«131149_j4483945857528_1_alg».proof.Proof.Gen.KernelIdeal.Launch
import proofs.«131149_j4483945857528_1_alg».proof.Proof.Gen.KernelIdeal.Points
import proofs.«131149_j4483945857528_1_alg».proof.Proof.Gen.KernelIdeal.Frame
import proofs.«131149_j4483945857528_1_alg».proof.Proof.Gen.ReferenceIdeal
import proofs.«131149_j4483945857528_1_alg».proof.Proof.Gen.Pre_finite_inputs
import proofs.«131149_j4483945857528_1_alg».proof.Proof.Gen.ReferenceIdeal.Run
import proofs.«131149_j4483945857528_1_alg».proof.Proof.Gen.ReferenceIdeal.Read
import proofs.«131149_j4483945857528_1_alg».proof.Proof.KernelValue
import proofs.«131149_j4483945857528_1_alg».proof.Proof.RefValue
import Idealize.ShloMosaic.Adequacy
import Idealize.ShloMosaic.Init

noncomputable section

namespace Cert.Proof

open Idealize.ShloMosaic Idealize.SL.Sem

/-- The reference runs and leaves its arguments as they were: its generated run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both idealized programs end with the control array, the relaxation
    column, the value vector and the rate at the controller's functions of the arguments: the kernel's run read
    block by block and through its host lines, the reference's run read stage by stage, one term each. -/
theorem algebraic : Cert.algebraic_KernelIdeal_ReferenceIdeal := by
  intro m ρ m' ρ' _ hagree
  refine ⟨_, _, _, _, Cert.KernelIdeal.ArrValue.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [Cert.ReferenceIdeal.Read.val_main_v56_eq, Cert.ReferenceIdeal.ArrValue.control_eq, a0, a1, a2, a3, a4, a5, a6, a7]
    rfl
  · rw [Cert.ReferenceIdeal.Read.val_main_v62_eq, Cert.ReferenceIdeal.ArrValue.relax_out_eq, a0, a1, a2, a3, a4, a5, a6, a7]
    rfl
  · refine (Cert.ReferenceIdeal.Read.val_main_v15_eq (F := Ideal) _ _ _ _ _).trans ?_
    rw [Cert.ReferenceIdeal.ArrValue.lyap_eq, a0, a1, a2, a3, a4]
    rfl
  · rw [Cert.ReferenceIdeal.Read.val_main_v61_eq, Cert.ReferenceIdeal.ArrValue.decay_out_eq, a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
